-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x26 : Shape := ⟨2, ![16384, 26]⟩
abbrev S16384x13 : Shape := ⟨2, ![16384, 13]⟩
abbrev S26x100000x1 : Shape := ⟨3, ![26, 100000, 1]⟩
abbrev S26x100000x16 : Shape := ⟨3, ![26, 100000, 16]⟩
abbrev S13x1 : Shape := ⟨2, ![13, 1]⟩
abbrev S1 : Shape := ⟨1, ![1]⟩
abbrev S429x400 : Shape := ⟨2, ![429, 400]⟩
abbrev S400 : Shape := ⟨1, ![400]⟩
abbrev S400x400 : Shape := ⟨2, ![400, 400]⟩
abbrev S400x1 : Shape := ⟨2, ![400, 1]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S26x100000x1 : S_.BroadcastsInDim S26x100000x1 (![] : Fin 0 → Fin S26x100000x1.rank)
  reducesTo_S26x100000x1_S_d0_1_2 : S26x100000x1.ReducesTo [0, 1, 2] S_
  bcast_S_S26x100000x16 : S_.BroadcastsInDim S26x100000x16 (![] : Fin 0 → Fin S26x100000x16.rank)
  reducesTo_S26x100000x16_S_d0_1_2 : S26x100000x16.ReducesTo [0, 1, 2] S_
  bcast_S_S13x1 : S_.BroadcastsInDim S13x1 (![] : Fin 0 → Fin S13x1.rank)
  reducesTo_S13x1_S_d0_1 : S13x1.ReducesTo [0, 1] S_
  bcast_S_S1 : S_.BroadcastsInDim S1 (![] : Fin 0 → Fin S1.rank)
  reducesTo_S1_S_d0 : S1.ReducesTo [0] S_
  bcast_S_S429x400 : S_.BroadcastsInDim S429x400 (![] : Fin 0 → Fin S429x400.rank)
  reducesTo_S429x400_S_d0_1 : S429x400.ReducesTo [0, 1] S_
  bcast_S_S400 : S_.BroadcastsInDim S400 (![] : Fin 0 → Fin S400.rank)
  reducesTo_S400_S_d0 : S400.ReducesTo [0] S_
  bcast_S_S400x400 : S_.BroadcastsInDim S400x400 (![] : Fin 0 → Fin S400x400.rank)
  reducesTo_S400x400_S_d0_1 : S400x400.ReducesTo [0, 1] S_
  bcast_S_S400x1 : S_.BroadcastsInDim S400x1 (![] : Fin 0 → Fin S400x1.rank)
  reducesTo_S400x1_S_d0_1 : S400x1.ReducesTo [0, 1] S_

variable [Facts]

def fn_part3 {F : FTy → Type} [FloatOps F] (main_arg12 : FVec F S400x1 .f32) (main_v48 : IVec S_ 1) (main_v49 : FVec F S400 .f32) (main_v50 : FVec F S400 .f32) : IVec S_ 1 :=
  let main_v51 : IVec S400 1 := cmpf .olt main_v49 main_v50
  let main_c_19 : IVec S_ 1 := constantI S_ 1 1#1
  let main_v52 : IVec S_ 1 := (fun x v => Host.reduce IntOp.andi x v reducesTo_S400_S_d0 h_S_) main_v51 main_c_19
  let main_v53 : IVec S_ 1 := andi main_v48 main_v52
  let main_v54 : FVec F S400x1 .f32 := Host.absf main_arg12
  let main_cst_20 : FVec F S_ .f32 := constant S_ .f32 0x7F800000#32
  let main_v55 : FVec F S400x1 .f32 := broadcastInDim S400x1 ![] bcast_S_S400x1 main_cst_20
  let main_v56 : IVec S400x1 1 := cmpf .olt main_v54 main_v55
  let main_c_21 : IVec S_ 1 := constantI S_ 1 1#1
  let main_v57 : IVec S_ 1 := (fun x v => Host.reduce IntOp.andi x v reducesTo_S400x1_S_d0_1 h_S_) main_v56 main_c_21
  let main_v58 : IVec S_ 1 := andi main_v53 main_v57
  main_v58

def fn_part2 {F : FTy → Type} [FloatOps F] (main_arg8 : FVec F S400x400 .f32) (main_arg9 : FVec F S400 .f32) (main_arg10 : FVec F S400x400 .f32) (main_arg11 : FVec F S400 .f32) (main_arg12 : FVec F S400x1 .f32) (main_v33 : IVec S_ 1) : IVec S_ 1 :=
  let main_v34 : FVec F S400x400 .f32 := Host.absf main_arg8
  let main_cst_12 : FVec F S_ .f32 := constant S_ .f32 0x7F800000#32
  let main_v35 : FVec F S400x400 .f32 := broadcastInDim S400x400 ![] bcast_S_S400x400 main_cst_12
  let main_v36 : IVec S400x400 1 := cmpf .olt main_v34 main_v35
  let main_c_13 : IVec S_ 1 := constantI S_ 1 1#1
  let main_v37 : IVec S_ 1 := (fun x v => Host.reduce IntOp.andi x v reducesTo_S400x400_S_d0_1 h_S_) main_v36 main_c_13
  let main_v38 : IVec S_ 1 := andi main_v33 main_v37
  let main_v39 : FVec F S400 .f32 := Host.absf main_arg9
  let main_cst_14 : FVec F S_ .f32 := constant S_ .f32 0x7F800000#32
  let main_v40 : FVec F S400 .f32 := broadcastInDim S400 ![] bcast_S_S400 main_cst_14
  let main_v41 : IVec S400 1 := cmpf .olt main_v39 main_v40
  let main_c_15 : IVec S_ 1 := constantI S_ 1 1#1
  let main_v42 : IVec S_ 1 := (fun x v => Host.reduce IntOp.andi x v reducesTo_S400_S_d0 h_S_) main_v41 main_c_15
  let main_v43 : IVec S_ 1 := andi main_v38 main_v42
  let main_v44 : FVec F S400x400 .f32 := Host.absf main_arg10
  let main_cst_16 : FVec F S_ .f32 := constant S_ .f32 0x7F800000#32
  let main_v45 : FVec F S400x400 .f32 := broadcastInDim S400x400 ![] bcast_S_S400x400 main_cst_16
  let main_v46 : IVec S400x400 1 := cmpf .olt main_v44 main_v45
  let main_c_17 : IVec S_ 1 := constantI S_ 1 1#1
  let main_v47 : IVec S_ 1 := (fun x v => Host.reduce IntOp.andi x v reducesTo_S400x400_S_d0_1 h_S_) main_v46 main_c_17
  let main_v48 : IVec S_ 1 := andi main_v43 main_v47
  let main_v49 : FVec F S400 .f32 := Host.absf main_arg11
  let main_cst_18 : FVec F S_ .f32 := constant S_ .f32 0x7F800000#32
  let main_v50 : FVec F S400 .f32 := broadcastInDim S400 ![] bcast_S_S400 main_cst_18
  fn_part3 (F := F) main_arg12 main_v48 main_v49 main_v50

def fn_part1 {F : FTy → Type} [FloatOps F] (main_arg5 : FVec F S1 .f32) (main_arg6 : FVec F S429x400 .f32) (main_arg7 : FVec F S400 .f32) (main_arg8 : FVec F S400x400 .f32) (main_arg9 : FVec F S400 .f32) (main_arg10 : FVec F S400x400 .f32) (main_arg11 : FVec F S400 .f32) (main_arg12 : FVec F S400x1 .f32) (main_v13 : IVec S_ 1) (main_v16 : IVec S13x1 1) : IVec S_ 1 :=
  let main_c_5 : IVec S_ 1 := constantI S_ 1 1#1
  let main_v17 : IVec S_ 1 := (fun x v => Host.reduce IntOp.andi x v reducesTo_S13x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S429x400 .f32 := Host.absf main_arg6
  let main_cst_8 : FVec F S_ .f32 := constant S_ .f32 0x7F800000#32
  let main_v25 : FVec F S429x400 .f32 := broadcastInDim S429x400 ![] bcast_S_S429x400 main_cst_8
  let main_v26 : IVec S429x400 1 := cmpf .olt main_v24 main_v25
  let main_c_9 : IVec S_ 1 := constantI S_ 1 1#1
  let main_v27 : IVec S_ 1 := (fun x v => Host.reduce IntOp.andi x v reducesTo_S429x400_S_d0_1 h_S_) main_v26 main_c_9
  let main_v28 : IVec S_ 1 := andi main_v23 main_v27
  let main_v29 : FVec F S400 .f32 := Host.absf main_arg7
  let main_cst_10 : FVec F S_ .f32 := constant S_ .f32 0x7F800000#32
  let main_v30 : FVec F S400 .f32 := broadcastInDim S400 ![] bcast_S_S400 main_cst_10
  let main_v31 : IVec S400 1 := cmpf .olt main_v29 main_v30
  let main_c_11 : IVec S_ 1 := constantI S_ 1 1#1
  let main_v32 : IVec S_ 1 := (fun x v => Host.reduce IntOp.andi x v reducesTo_S400_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : IVec S16384x26 32) (main_arg1 : FVec F S16384x13 .f32) (main_arg2 : FVec F S26x100000x1 .f32) (main_arg3 : FVec F S26x100000x16 .f32) (main_arg4 : FVec F S13x1 .f32) (main_arg5 : FVec F S1 .f32) (main_arg6 : FVec F S429x400 .f32) (main_arg7 : FVec F S400 .f32) (main_arg8 : FVec F S400x400 .f32) (main_arg9 : FVec F S400 .f32) (main_arg10 : FVec F S400x400 .f32) (main_arg11 : FVec F S400 .f32) (main_arg12 : FVec F S400x1 .f32) : IVec S_ 1 :=
  let main_v0 : FVec F S16384x13 .f32 := Host.absf main_arg1
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S26x100000x1 .f32 := Host.absf main_arg2
  let main_cst_0 : FVec F S_ .f32 := constant S_ .f32 0x7F800000#32
  let main_v5 : FVec F S26x100000x1 .f32 := broadcastInDim S26x100000x1 ![] bcast_S_S26x100000x1 main_cst_0
  let main_v6 : IVec S26x100000x1 1 := cmpf .olt main_v4 main_v5
  let main_c_1 : IVec S_ 1 := constantI S_ 1 1#1
  let main_v7 : IVec S_ 1 := (fun x v => Host.reduce IntOp.andi x v reducesTo_S26x100000x1_S_d0_1_2 h_S_) main_v6 main_c_1
  let main_v8 : IVec S_ 1 := andi main_v3 main_v7
  let main_v9 : FVec F S26x100000x16 .f32 := Host.absf main_arg3
  let main_cst_2 : FVec F S_ .f32 := constant S_ .f32 0x7F800000#32
  let main_v10 : FVec F S26x100000x16 .f32 := broadcastInDim S26x100000x16 ![] bcast_S_S26x100000x16 main_cst_2
  let main_v11 : IVec S26x100000x16 1 := cmpf .olt main_v9 main_v10
  let main_c_3 : IVec S_ 1 := constantI S_ 1 1#1
  let main_v12 : IVec S_ 1 := (fun x v => Host.reduce IntOp.andi x v reducesTo_S26x100000x16_S_d0_1_2 h_S_) main_v11 main_c_3
  let main_v13 : IVec S_ 1 := andi main_v8 main_v12
  let main_v14 : FVec F S13x1 .f32 := Host.absf main_arg4
  let main_cst_4 : FVec F S_ .f32 := constant S_ .f32 0x7F800000#32
  let main_v15 : FVec F S13x1 .f32 := broadcastInDim S13x1 ![] bcast_S_S13x1 main_cst_4
  let main_v16 : IVec S13x1 1 := cmpf .olt main_v14 main_v15
  fn_part1 (F := F) main_arg5 main_arg6 main_arg7 main_arg8 main_arg9 main_arg10 main_arg11 main_arg12 main_v13 main_v16
-- ==== Kernel.lean ====
abbrev S16384x26 : Shape := ⟨2, ![16384, 26]⟩
abbrev S16384x13 : Shape := ⟨2, ![16384, 13]⟩
abbrev S26x100000x1 : Shape := ⟨3, ![26, 100000, 1]⟩
abbrev S26x100000x16 : Shape := ⟨3, ![26, 100000, 16]⟩
abbrev S13x1 : Shape := ⟨2, ![13, 1]⟩
abbrev S1 : Shape := ⟨1, ![1]⟩
abbrev S429x400 : Shape := ⟨2, ![429, 400]⟩
abbrev S400 : Shape := ⟨1, ![400]⟩
abbrev S400x400 : Shape := ⟨2, ![400, 400]⟩
abbrev S400x1 : Shape := ⟨2, ![400, 1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x3 : Shape := ⟨3, ![16384, 26, 3]⟩
abbrev S16384 : Shape := ⟨1, ![16384]⟩
abbrev S16384x1 : Shape := ⟨2, ![16384, 1]⟩
abbrev S16384x26x2 : Shape := ⟨3, ![16384, 26, 2]⟩
abbrev S16384x26x16 : Shape := ⟨3, ![16384, 26, 16]⟩
abbrev S16384x416 : Shape := ⟨2, ![16384, 416]⟩
abbrev S16384x429 : Shape := ⟨2, ![16384, 429]⟩
abbrev S1024x26x16 : Shape := ⟨3, ![1024, 26, 16]⟩
abbrev S1024x429 : Shape := ⟨2, ![1024, 429]⟩
abbrev S1024x13 : Shape := ⟨2, ![1024, 13]⟩
abbrev S1024x1 : Shape := ⟨2, ![1024, 1]⟩
abbrev S1024x16 : Shape := ⟨2, ![1024, 16]⟩
abbrev S1024 : Shape := ⟨1, ![1024]⟩
abbrev S1024x400 : Shape := ⟨2, ![1024, 400]⟩
abbrev S1x400 : Shape := ⟨2, ![1, 400]⟩
abbrev S13 : Shape := ⟨1, ![13]⟩
abbrev S1x13 : Shape := ⟨2, ![1, 13]⟩
abbrev S1x1 : Shape := ⟨2, ![1, 1]⟩

abbrev nBuf : Space → Nat
  | .hbm => 68
  | .vmem => 19
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S26x100000x1, .f32⟩
  | .hbm, ⟨3, _⟩ => ⟨S26x100000x16, .f32⟩
  | .hbm, ⟨4, _⟩ => ⟨S13x1, .f32⟩
  | .hbm, ⟨5, _⟩ => ⟨S1, .f32⟩
  | .hbm, ⟨6, _⟩ => ⟨S429x400, .f32⟩
  | .hbm, ⟨7, _⟩ => ⟨S400, .f32⟩
  | .hbm, ⟨8, _⟩ => ⟨S400x400, .f32⟩
  | .hbm, ⟨9, _⟩ => ⟨S400, .f32⟩
  | .hbm, ⟨10, _⟩ => ⟨S400x400, .f32⟩
  | .hbm, ⟨11, _⟩ => ⟨S400, .f32⟩
  | .hbm, ⟨12, _⟩ => ⟨S400x1, .f32⟩
  | .hbm, ⟨13, _⟩ => ⟨S26, .i32⟩
  | .hbm, ⟨14, _⟩ => ⟨S1x26, .i32⟩
  | .hbm, ⟨15, _⟩ => ⟨S_, .i32⟩
  | .hbm, ⟨16, _⟩ => ⟨S1x26, .i32⟩
  | .hbm, ⟨17, _⟩ => ⟨S1x26, .i1⟩
  | .hbm, ⟨18, _⟩ => ⟨S_, .i32⟩
  | .hbm, ⟨19, _⟩ => ⟨S1x26, .i32⟩
  | .hbm, ⟨20, _⟩ => ⟨S1x26, .i32⟩
  | .hbm, ⟨21, _⟩ => ⟨S1x26, .i32⟩
  | .hbm, ⟨22, _⟩ => ⟨S_, .i32⟩
  | .hbm, ⟨23, _⟩ => ⟨S16384x26, .i32⟩
  | .hbm, ⟨24, _⟩ => ⟨S16384x26, .i1⟩
  | .hbm, ⟨25, _⟩ => ⟨S_, .i32⟩
  | .hbm, ⟨26, _⟩ => ⟨S16384x26, .i32⟩
  | .hbm, ⟨27, _⟩ => ⟨S16384x26, .i32⟩
  | .hbm, ⟨28, _⟩ => ⟨S16384x26, .i32⟩
  | .hbm, ⟨29, _⟩ => ⟨S16384x26, .i32⟩
  | .hbm, ⟨30, _⟩ => ⟨S_, .i32⟩
  | .hbm, ⟨31, _⟩ => ⟨S16384x26, .i32⟩
  | .hbm, ⟨32, _⟩ => ⟨S16384x26, .i32⟩
  | .hbm, ⟨33, _⟩ => ⟨S16384x26x1, .i32⟩
  | .hbm, ⟨34, _⟩ => ⟨S16384x26x1, .i32⟩
  | .hbm, ⟨35, _⟩ => ⟨S16384x26x1, .i32⟩
  | .hbm, ⟨36, _⟩ => ⟨S16384x26x3, .i32⟩
  | .hbm, ⟨37, _⟩ => ⟨S16384x26, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .i32⟩
  | .hbm, ⟨42, _⟩ => ⟨S1x26, .i32⟩
  | .hbm, ⟨43, _⟩ => ⟨S1x26, .i1⟩
  | .hbm, ⟨44, _⟩ => ⟨S_, .i32⟩
  | .hbm, ⟨45, _⟩ => ⟨S1x26, .i32⟩
  | .hbm, ⟨46, _⟩ => ⟨S1x26, .i32⟩
  | .hbm, ⟨47, _⟩ => ⟨S1x26, .i32⟩
  | .hbm, ⟨48, _⟩ => ⟨S_, .i32⟩
  | .hbm, ⟨49, _⟩ => ⟨S16384x26, .i32⟩
  | .hbm, ⟨50, _⟩ => ⟨S16384x26, .i1⟩
  | .hbm, ⟨51, _⟩ => ⟨S_, .i32⟩
  | .hbm, ⟨52, _⟩ => ⟨S16384x26, .i32⟩
  | .hbm, ⟨53, _⟩ => ⟨S16384x26, .i32⟩
  | .hbm, ⟨54, _⟩ => ⟨S16384x26, .i32⟩
  | .hbm, ⟨55, _⟩ => ⟨S16384x26, .i32⟩
  | .hbm, ⟨56, _⟩ => ⟨S16384x26x1, .i32⟩
  | .hbm, ⟨57, _⟩ => ⟨S16384x26x1, .i32⟩
  | .hbm, ⟨58, _⟩ => ⟨S16384x26x2, .i32⟩
  | .hbm, ⟨59, _⟩ => ⟨S16384x26x16, .f32⟩
  | .hbm, ⟨60, _⟩ => ⟨S16384x416, .f32⟩
  | .hbm, ⟨61, _⟩ => ⟨S16384x429, .f32⟩
  | .hbm, ⟨62, _⟩ => ⟨S16384x429, .bf16⟩
  | .hbm, ⟨63, _⟩ => ⟨S429x400, .bf16⟩
  | .hbm, ⟨64, _⟩ => ⟨S400x400, .bf16⟩
  | .hbm, ⟨65, _⟩ => ⟨S400x400, .bf16⟩
  | .hbm, ⟨66, _⟩ => ⟨S400x1, .bf16⟩
  | .hbm, ⟨67, _⟩ => ⟨S16384x1, .f32⟩
  | .local _ .vmem, ⟨0, _⟩ => ⟨S1024x26x16, .f32⟩
  | .local _ .vmem, ⟨1, _⟩ => ⟨S1024x26x16, .f32⟩
  | .local _ .vmem, ⟨2, _⟩ => ⟨S1024x429, .bf16⟩
  | .local _ .vmem, ⟨3, _⟩ => ⟨S1024x429, .bf16⟩
  | .local _ .vmem, ⟨4, _⟩ => ⟨S1024x13, .f32⟩
  | .local _ .vmem, ⟨5, _⟩ => ⟨S1024x13, .f32⟩
  | .local _ .vmem, ⟨6, _⟩ => ⟨S1024x1, .f32⟩
  | .local _ .vmem, ⟨7, _⟩ => ⟨S1024x1, .f32⟩
  | .local _ .vmem, ⟨8, _⟩ => ⟨S13x1, .f32⟩
  | .local _ .vmem, ⟨9, _⟩ => ⟨S429x400, .bf16⟩
  | .local _ .vmem, ⟨10, _⟩ => ⟨S400, .f32⟩
  | .local _ .vmem, ⟨11, _⟩ => ⟨S400x400, .bf16⟩
  | .local _ .vmem, ⟨12, _⟩ => ⟨S400, .f32⟩
  | .local _ .vmem, ⟨13, _⟩ => ⟨S400x400, .bf16⟩
  | .local _ .vmem, ⟨14, _⟩ => ⟨S400, .f32⟩
  | .local _ .vmem, ⟨15, _⟩ => ⟨S400x1, .bf16⟩
  | .local _ .vmem, ⟨16, _⟩ => ⟨S1, .f32⟩
  | .local _ .vmem, ⟨17, _⟩ => ⟨S1024x1, .f32⟩
  | .local _ .vmem, ⟨18, _⟩ => ⟨S1024x1, .f32⟩
  | _, _ => ⟨S16384x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x26x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x429 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x13 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S13x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S429x400 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S400 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S400x400 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S400 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S400x400 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S400 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S400x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x1_S16384x26x3_d2 : Shape.Concatenates [S16384x26x1, S16384x26x1, S16384x26x1] S16384x26x3 2
  reducesTo_S16384x26_S16384_d1 : S16384x26.ReducesTo [1] S16384
  h_S_ : 0 < S_.numel
  bcast_S16384_S16384x1_0 : S16384.BroadcastsInDim S16384x1 (![0] : Fin 1 → Fin S16384x1.rank)
  concatenates_S16384x26x1_S16384x26x1_S16384x26x2_d2 : Shape.Concatenates [S16384x26x1, S16384x26x1] S16384x26x2 2
  shapeCasts_S16384x26x16_S16384x416 : S16384x26x16.ShapeCasts S16384x416
  concatenates_S16384x416_S16384x13_S16384x429_d1 : Shape.Concatenates [S16384x416, S16384x13] S16384x429 1
  bitsLt_bf16_f32 : FTy.bits .bf16 < FTy.bits .f32
  inb_S1024x26x16_S1024x26x16_0_0_0 : ∀ a, (![0, 0, 0] : Fin 3 → Nat) a + S1024x26x16.size a ≤ S1024x26x16.size a
  h_S1024x26x16 : 0 < S1024x26x16.numel
  shapeCasts_S1024x26x16_S1024x26x16 : S1024x26x16.ShapeCasts S1024x26x16
  reduces_S1024x26x16_S1024x16 : S1024x26x16.Reduces [1] S1024x16
  reduces_S1024x16_S1024 : S1024x16.Reduces [1] S1024
  shapeCasts_S1024_S1024x1 : S1024.ShapeCasts S1024x1
  inb_S1024x429_S1024x429_0_0 : ∀ a, (![0, 0] : Fin 2 → Nat) a + S1024x429.size a ≤ S1024x429.size a
  h_S1024x429 : 0 < S1024x429.numel
  shapeCasts_S1024x429_S1024x429 : S1024x429.ShapeCasts S1024x429
  inb_S429x400_S429x400_0_0 : ∀ a, (![0, 0] : Fin 2 → Nat) a + S429x400.size a ≤ S429x400.size a
  h_S429x400 : 0 < S429x400.numel
  shapeCasts_S429x400_S429x400 : S429x400.ShapeCasts S429x400
  inb_S400_S400_0 : ∀ a, (![0] : Fin 1 → Nat) a + S400.size a ≤ S400.size a
  h_S400 : 0 < S400.numel
  shapeCasts_S400_S1x400 : S400.ShapeCasts S1x400
  broadcasts_S1x400_S1024x400 : S1x400.Broadcasts S1024x400
  inb_S400x400_S400x400_0_0 : ∀ a, (![0, 0] : Fin 2 → Nat) a + S400x400.size a ≤ S400x400.size a
  h_S400x400 : 0 < S400x400.numel
  shapeCasts_S400x400_S400x400 : S400x400.ShapeCasts S400x400
  inb_S400x1_S400x1_0_0 : ∀ a, (![0, 0] : Fin 2 → Nat) a + S400x1.size a ≤ S400x1.size a
  h_S400x1 : 0 < S400x1.numel
  shapeCasts_S400x1_S400x1 : S400x1.ShapeCasts S400x1
  inb_S1024x13_S1024x13_0_0 : ∀ a, (![0, 0] : Fin 2 → Nat) a + S1024x13.size a ≤ S1024x13.size a
  h_S1024x13 : 0 < S1024x13.numel
  inb_S13x1_S13x1_0_0 : ∀ a, (![0, 0] : Fin 2 → Nat) a + S13x1.size a ≤ S13x1.size a
  h_S13x1 : 0 < S13x1.numel
  shapeCasts_S13x1_S13 : S13x1.ShapeCasts S13
  shapeCasts_S13_S1x13 : S13.ShapeCasts S1x13
  broadcasts_S1x13_S1024x13 : S1x13.Broadcasts S1024x13
  reduces_S1024x13_S1024 : S1024x13.Reduces [1] S1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  gather_S26x100000x1_S16384x26x3_S16384x26_n_012_n_n_012_2_111_wf : GatherDims.WF S26x100000x1 S16384x26x3 S16384x26 [] [0, 1, 2] [] [0, 1, 2] [] 2 ![1, 1, 1]
  gather_S26x100000x16_S16384x26x2_S16384x26x16_2_01_n_n_01_2_1116_wf : GatherDims.WF S26x100000x16 S16384x26x2 S16384x26x16 [2] [0, 1] [] [0, 1] [] 2 ![1, 1, 16]
  dot_S1024x429_S429x400_S1024x400_1_0_0_1_n_n_wf : DotDims.WF S1024x429 S429x400 S1024x400 [1] [0] [0] [1] [] []
  dot_S1024x400_S400x400_S1024x400_1_0_0_1_n_n_wf : DotDims.WF S1024x400 S400x400 S1024x400 [1] [0] [0] [1] [] []
  dot_S1024x400_S400x1_S1024x1_1_0_0_1_n_n_wf : DotDims.WF S1024x400 S400x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x26x16.size a ≤ S16384x26x16.size a
  hwx0_0 : ∀ i : grid0.Coords, EltTy.bits .f32 = 32 ∨ (Rect.block (s := S16384x26x16) S1024x26x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x429.size a ≤ S16384x429.size a
  hwx0_1 : ∀ i : grid0.Coords, EltTy.bits .bf16 = 32 ∨ (Rect.block (s := S16384x429) S1024x429.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x13.size a ≤ S16384x13.size a
  hwx0_2 : ∀ i : grid0.Coords, EltTy.bits .f32 = 32 ∨ (Rect.block (s := S16384x13) S1024x13.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .f32 = 32 ∨ (Rect.block (s := S16384x1) S1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S13x1.size a ≤ S13x1.size a
  hwx0_4 : ∀ i : grid0.Coords, EltTy.bits .f32 = 32 ∨ (Rect.block (s := S13x1) S13x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S429x400.size a ≤ S429x400.size a
  hwx0_5 : ∀ i : grid0.Coords, EltTy.bits .bf16 = 32 ∨ (Rect.block (s := S429x400) S429x400.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S400.size a ≤ S400.size a
  hwx0_6 : ∀ i : grid0.Coords, EltTy.bits .f32 = 32 ∨ (Rect.block (s := S400) S400.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S400x400.size a ≤ S400x400.size a
  hwx0_7 : ∀ i : grid0.Coords, EltTy.bits .bf16 = 32 ∨ (Rect.block (s := S400x400) S400x400.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S400.size a ≤ S400.size a
  hwx0_8 : ∀ i : grid0.Coords, EltTy.bits .f32 = 32 ∨ (Rect.block (s := S400) S400.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S400x400.size a ≤ S400x400.size a
  hwx0_9 : ∀ i : grid0.Coords, EltTy.bits .bf16 = 32 ∨ (Rect.block (s := S400x400) S400x400.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S400.size a ≤ S400.size a
  hwx0_10 : ∀ i : grid0.Coords, EltTy.bits .f32 = 32 ∨ (Rect.block (s := S400) S400.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S400x1.size a ≤ S400x1.size a
  hwx0_11 : ∀ i : grid0.Coords, EltTy.bits .bf16 = 32 ∨ (Rect.block (s := S400x1) S400x1.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x1.size a ≤ S16384x1.size a
  hwx0_13 : ∀ i : grid0.Coords, EltTy.bits .f32 = 32 ∨ (Rect.block (s := S16384x1) S1024x1.size (cc0_transform_13 i) (hinb0_13 i)).WholeWords (EltTy.packing .f32)

variable [Facts₀]

def gather_S26x100000x1_S16384x26x3_S16384x26_n_012_n_n_012_2_111 : GatherDims S26x100000x1 S16384x26x3 S16384x26 where
  offsetDims := []
  collapsedSliceDims := [0, 1, 2]
  operandBatchingDims := []
  startIndicesBatchingDims := []
  startIndexMap := [0, 1, 2]
  indexVectorDim := 2
  sliceSizes := ![1, 1, 1]
  wf := gather_S26x100000x1_S16384x26x3_S16384x26_n_012_n_n_012_2_111_wf
def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S1024x429_S429x400_S1024x400_1_0_0_1_n_n : DotDims S1024x429 S429x400 S1024x400 where
  lhsContracting := [1]
  rhsContracting := [0]
  lhsNonContracting := [0]
  rhsNonContracting := [1]
  lhsBatch := []
  rhsBatch := []
  wf := dot_S1024x429_S429x400_S1024x400_1_0_0_1_n_n_wf
def dot_S1024x400_S400x400_S1024x400_1_0_0_1_n_n : DotDims S1024x400 S400x400 S1024x400 where
  lhsContracting := [1]
  rhsContracting := [0]
  lhsNonContracting := [0]
  rhsNonContracting := [1]
  lhsBatch := []
  rhsBatch := []
  wf := dot_S1024x400_S400x400_S1024x400_1_0_0_1_n_n_wf
def dot_S1024x400_S400x1_S1024x1_1_0_0_1_n_n : DotDims S1024x400 S400x1 S1024x1 where
  lhsContracting := [1]
  rhsContracting := [0]
  lhsNonContracting := [0]
  rhsNonContracting := [1]
  lhsBatch := []
  rhsBatch := []
  wf := dot_S1024x400_S400x1_S1024x1_1_0_0_1_n_n_wf

abbrev win0_0 : Pipeline.Window sig grid0 :=
  Pipeline.Window.ofSpec (Memref.whole main_v36) S1024x26x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S1024x429.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x13.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S13x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S429x400.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S400.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S400x400.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S400.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S400x400.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S400.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v43) S400x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg5) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v44) S1024x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x26 : Shape := ⟨2, ![16384, 26]⟩
abbrev S16384x13 : Shape := ⟨2, ![16384, 13]⟩
abbrev S26x100000x1 : Shape := ⟨3, ![26, 100000, 1]⟩
abbrev S26x100000x16 : Shape := ⟨3, ![26, 100000, 16]⟩
abbrev S13x1 : Shape := ⟨2, ![13, 1]⟩
abbrev S1 : Shape := ⟨1, ![1]⟩
abbrev S429x400 : Shape := ⟨2, ![429, 400]⟩
abbrev S400 : Shape := ⟨1, ![400]⟩
abbrev S400x400 : Shape := ⟨2, ![400, 400]⟩
abbrev S400x1 : Shape := ⟨2, ![400, 1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x3 : Shape := ⟨3, ![16384, 26, 3]⟩
abbrev S16384 : Shape := ⟨1, ![16384]⟩
abbrev S16384x1 : Shape := ⟨2, ![16384, 1]⟩
abbrev S16384x26x2 : Shape := ⟨3, ![16384, 26, 2]⟩
abbrev S16384x26x16 : Shape := ⟨3, ![16384, 26, 16]⟩
abbrev S16384x16 : Shape := ⟨2, ![16384, 16]⟩
abbrev S16384x416 : Shape := ⟨2, ![16384, 416]⟩
abbrev S16384x429 : Shape := ⟨2, ![16384, 429]⟩
abbrev S16384x400 : Shape := ⟨2, ![16384, 400]⟩
abbrev S1x400 : Shape := ⟨2, ![1, 400]⟩
abbrev S1x1 : Shape := ⟨2, ![1, 1]⟩

abbrev nBuf : Space → Nat
  | .hbm => 112
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S26x100000x1, .f32⟩
  | .hbm, ⟨3, _⟩ => ⟨S26x100000x16, .f32⟩
  | .hbm, ⟨4, _⟩ => ⟨S13x1, .f32⟩
  | .hbm, ⟨5, _⟩ => ⟨S1, .f32⟩
  | .hbm, ⟨6, _⟩ => ⟨S429x400, .f32⟩
  | .hbm, ⟨7, _⟩ => ⟨S400, .f32⟩
  | .hbm, ⟨8, _⟩ => ⟨S400x400, .f32⟩
  | .hbm, ⟨9, _⟩ => ⟨S400, .f32⟩
  | .hbm, ⟨10, _⟩ => ⟨S400x400, .f32⟩
  | .hbm, ⟨11, _⟩ => ⟨S400, .f32⟩
  | .hbm, ⟨12, _⟩ => ⟨S400x1, .f32⟩
  | .hbm, ⟨13, _⟩ => ⟨S26, .i32⟩
  | .hbm, ⟨14, _⟩ => ⟨S1x26, .i32⟩
  | .hbm, ⟨15, _⟩ => ⟨S_, .i32⟩
  | .hbm, ⟨16, _⟩ => ⟨S1x26, .i32⟩
  | .hbm, ⟨17, _⟩ => ⟨S1x26, .i1⟩
  | .hbm, ⟨18, _⟩ => ⟨S_, .i32⟩
  | .hbm, ⟨19, _⟩ => ⟨S1x26, .i32⟩
  | .hbm, ⟨20, _⟩ => ⟨S1x26, .i32⟩
  | .hbm, ⟨21, _⟩ => ⟨S1x26, .i32⟩
  | .hbm, ⟨22, _⟩ => ⟨S_, .i32⟩
  | .hbm, ⟨23, _⟩ => ⟨S16384x26, .i32⟩
  | .hbm, ⟨24, _⟩ => ⟨S16384x26, .i1⟩
  | .hbm, ⟨25, _⟩ => ⟨S_, .i32⟩
  | .hbm, ⟨26, _⟩ => ⟨S16384x26, .i32⟩
  | .hbm, ⟨27, _⟩ => ⟨S16384x26, .i32⟩
  | .hbm, ⟨28, _⟩ => ⟨S16384x26, .i32⟩
  | .hbm, ⟨29, _⟩ => ⟨S16384x26, .i32⟩
  | .hbm, ⟨30, _⟩ => ⟨S_, .i32⟩
  | .hbm, ⟨31, _⟩ => ⟨S16384x26, .i32⟩
  | .hbm, ⟨32, _⟩ => ⟨S16384x26, .i32⟩
  | .hbm, ⟨33, _⟩ => ⟨S16384x26x1, .i32⟩
  | .hbm, ⟨34, _⟩ => ⟨S16384x26x1, .i32⟩
  | .hbm, ⟨35, _⟩ => ⟨S16384x26x1, .i32⟩
  | .hbm, ⟨36, _⟩ => ⟨S16384x26x3, .i32⟩
  | .hbm, ⟨37, _⟩ => ⟨S16384x26, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S_, .i32⟩
  | .hbm, ⟨44, _⟩ => ⟨S1x26, .i32⟩
  | .hbm, ⟨45, _⟩ => ⟨S1x26, .i1⟩
  | .hbm, ⟨46, _⟩ => ⟨S_, .i32⟩
  | .hbm, ⟨47, _⟩ => ⟨S1x26, .i32⟩
  | .hbm, ⟨48, _⟩ => ⟨S1x26, .i32⟩
  | .hbm, ⟨49, _⟩ => ⟨S1x26, .i32⟩
  | .hbm, ⟨50, _⟩ => ⟨S_, .i32⟩
  | .hbm, ⟨51, _⟩ => ⟨S16384x26, .i32⟩
  | .hbm, ⟨52, _⟩ => ⟨S16384x26, .i1⟩
  | .hbm, ⟨53, _⟩ => ⟨S_, .i32⟩
  | .hbm, ⟨54, _⟩ => ⟨S16384x26, .i32⟩
  | .hbm, ⟨55, _⟩ => ⟨S16384x26, .i32⟩
  | .hbm, ⟨56, _⟩ => ⟨S16384x26, .i32⟩
  | .hbm, ⟨57, _⟩ => ⟨S16384x26, .i32⟩
  | .hbm, ⟨58, _⟩ => ⟨S16384x26x1, .i32⟩
  | .hbm, ⟨59, _⟩ => ⟨S16384x26x1, .i32⟩
  | .hbm, ⟨60, _⟩ => ⟨S16384x26x2, .i32⟩
  | .hbm, ⟨61, _⟩ => ⟨S16384x26x16, .f32⟩
  | .hbm, ⟨62, _⟩ => ⟨S_, .f32⟩
  | .hbm, ⟨63, _⟩ => ⟨S16384x16, .f32⟩
  | .hbm, ⟨64, _⟩ => ⟨S16384x16, .f32⟩
  | .hbm, ⟨65, _⟩ => ⟨S16384x26x16, .f32⟩
  | .hbm, ⟨66, _⟩ => ⟨S_, .f32⟩
  | .hbm, ⟨67, _⟩ => ⟨S16384x16, .f32⟩
  | .hbm, ⟨68, _⟩ => ⟨S16384x16, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x416, .f32⟩
  | .hbm, ⟨77, _⟩ => ⟨S16384x429, .f32⟩
  | .hbm, ⟨78, _⟩ => ⟨S16384x400, .f32⟩
  | .hbm, ⟨79, _⟩ => ⟨S1x400, .f32⟩
  | .hbm, ⟨80, _⟩ => ⟨S16384x400, .f32⟩
  | .hbm, ⟨81, _⟩ => ⟨S16384x400, .f32⟩
  | .hbm, ⟨82, _⟩ => ⟨S_, .f32⟩
  | .hbm, ⟨83, _⟩ => ⟨S16384x400, .f32⟩
  | .hbm, ⟨84, _⟩ => ⟨S16384x400, .f32⟩
  | .hbm, ⟨85, _⟩ => ⟨S16384x400, .f32⟩
  | .hbm, ⟨86, _⟩ => ⟨S1x400, .f32⟩
  | .hbm, ⟨87, _⟩ => ⟨S16384x400, .f32⟩
  | .hbm, ⟨88, _⟩ => ⟨S16384x400, .f32⟩
  | .hbm, ⟨89, _⟩ => ⟨S_, .f32⟩
  | .hbm, ⟨90, _⟩ => ⟨S16384x400, .f32⟩
  | .hbm, ⟨91, _⟩ => ⟨S16384x400, .f32⟩
  | .hbm, ⟨92, _⟩ => ⟨S16384x400, .f32⟩
  | .hbm, ⟨93, _⟩ => ⟨S1x400, .f32⟩
  | .hbm, ⟨94, _⟩ => ⟨S16384x400, .f32⟩
  | .hbm, ⟨95, _⟩ => ⟨S16384x400, .f32⟩
  | .hbm, ⟨96, _⟩ => ⟨S_, .f32⟩
  | .hbm, ⟨97, _⟩ => ⟨S16384x400, .f32⟩
  | .hbm, ⟨98, _⟩ => ⟨S16384x400, .f32⟩
  | .hbm, ⟨99, _⟩ => ⟨S16384x1, .f32⟩
  | .hbm, ⟨100, _⟩ => ⟨S16384x1, .f32⟩
  | .hbm, ⟨101, _⟩ => ⟨S1x1, .f32⟩
  | .hbm, ⟨102, _⟩ => ⟨S16384x1, .f32⟩
  | .hbm, ⟨103, _⟩ => ⟨S16384x1, .f32⟩
  | .hbm, ⟨104, _⟩ => ⟨S16384x1, .f32⟩
  | .hbm, ⟨105, _⟩ => ⟨S16384x1, .f32⟩
  | .hbm, ⟨106, _⟩ => ⟨S_, .f32⟩
  | .hbm, ⟨107, _⟩ => ⟨S16384x1, .f32⟩
  | .hbm, ⟨108, _⟩ => ⟨S16384x1, .f32⟩
  | .hbm, ⟨109, _⟩ => ⟨S_, .f32⟩
  | .hbm, ⟨110, _⟩ => ⟨S16384x1, .f32⟩
  | .hbm, ⟨111, _⟩ => ⟨S16384x1, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_cst_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call0_cst : Ref sig .tc := ⟨.hbm, 82, rfl⟩
abbrev main_call0_v0 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_call1_cst : Ref sig .tc := ⟨.hbm, 89, rfl⟩
abbrev main_call1_v0 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_cst : Ref sig .tc := ⟨.hbm, 96, rfl⟩
abbrev main_call2_v0 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_12 : Ref sig .tc := ⟨.hbm, 106, rfl⟩
abbrev main_v73 : Ref sig .tc := ⟨.hbm, 107, rfl⟩
abbrev main_v74 : Ref sig .tc := ⟨.hbm, 108, rfl⟩
abbrev main_cst_13 : Ref sig .tc := ⟨.hbm, 109, rfl⟩
abbrev main_v75 : Ref sig .tc := ⟨.hbm, 110, rfl⟩
abbrev main_v76 : Ref sig .tc := ⟨.hbm, 111, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x1_S16384x26x3_d2 : Shape.Concatenates [S16384x26x1, S16384x26x1, S16384x26x1] S16384x26x3 2
  reducesTo_S16384x26_S16384_d1 : S16384x26.ReducesTo [1] S16384
  h_S_ : 0 < S_.numel
  bcast_S16384_S16384x1_0 : S16384.BroadcastsInDim S16384x1 (![0] : Fin 1 → Fin S16384x1.rank)
  concatenates_S16384x26x1_S16384x26x1_S16384x26x2_d2 : Shape.Concatenates [S16384x26x1, S16384x26x1] S16384x26x2 2
  reducesTo_S16384x26x16_S16384x16_d1 : S16384x26x16.ReducesTo [1] S16384x16
  reducesTo_S16384x16_S16384_d1 : S16384x16.ReducesTo [1] S16384
  bcast_S_S16384x1 : S_.BroadcastsInDim S16384x1 (![] : Fin 0 → Fin S16384x1.rank)
  shapeCasts_S16384x26x16_S16384x416 : S16384x26x16.ShapeCasts S16384x416
  concatenates_S16384x416_S16384x13_S16384x429_d1 : Shape.Concatenates [S16384x416, S16384x13] S16384x429 1
  bcast_S400_S1x400_1 : S400.BroadcastsInDim S1x400 (![1] : Fin 1 → Fin S1x400.rank)
  bcast_S1x400_S16384x400_0_1 : S1x400.BroadcastsInDim S16384x400 (![0, 1] : Fin 2 → Fin S16384x400.rank)
  bcast_S_S16384x400 : S_.BroadcastsInDim S16384x400 (![] : Fin 0 → Fin S16384x400.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  gather_S26x100000x1_S16384x26x3_S16384x26_n_012_n_n_012_2_111_wf : GatherDims.WF S26x100000x1 S16384x26x3 S16384x26 [] [0, 1, 2] [] [0, 1, 2] [] 2 ![1, 1, 1]
  dot_S16384x13_S13x1_S16384x1_1_0_0_1_n_n_wf : DotDims.WF S16384x13 S13x1 S16384x1 [1] [0] [0] [1] [] []
  gather_S26x100000x16_S16384x26x2_S16384x26x16_2_01_n_n_01_2_1116_wf : GatherDims.WF S26x100000x16 S16384x26x2 S16384x26x16 [2] [0, 1] [] [0, 1] [] 2 ![1, 1, 16]
  dot_S16384x429_S429x400_S16384x400_1_0_0_1_n_n_wf : DotDims.WF S16384x429 S429x400 S16384x400 [1] [0] [0] [1] [] []
  dot_S16384x400_S400x400_S16384x400_1_0_0_1_n_n_wf : DotDims.WF S16384x400 S400x400 S16384x400 [1] [0] [0] [1] [] []
  dot_S16384x400_S400x1_S16384x1_1_0_0_1_n_n_wf : DotDims.WF S16384x400 S400x1 S16384x1 [1] [0] [0] [1] [] []

variable [Facts₀]

def gather_S26x100000x1_S16384x26x3_S16384x26_n_012_n_n_012_2_111 : GatherDims S26x100000x1 S16384x26x3 S16384x26 where
  offsetDims := []
  collapsedSliceDims := [0, 1, 2]
  operandBatchingDims := []
  startIndicesBatchingDims := []
  startIndexMap := [0, 1, 2]
  indexVectorDim := 2
  sliceSizes := ![1, 1, 1]
  wf := gather_S26x100000x1_S16384x26x3_S16384x26_n_012_n_n_012_2_111_wf
def dot_S16384x13_S13x1_S16384x1_1_0_0_1_n_n : DotDims S16384x13 S13x1 S16384x1 where
  lhsContracting := [1]
  rhsContracting := [0]
  lhsNonContracting := [0]
  rhsNonContracting := [1]
  lhsBatch := []
  rhsBatch := []
  wf := dot_S16384x13_S13x1_S16384x1_1_0_0_1_n_n_wf
def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S16384x429_S429x400_S16384x400_1_0_0_1_n_n : DotDims S16384x429 S429x400 S16384x400 where
  lhsContracting := [1]
  rhsContracting := [0]
  lhsNonContracting := [0]
  rhsNonContracting := [1]
  lhsBatch := []
  rhsBatch := []
  wf := dot_S16384x429_S429x400_S16384x400_1_0_0_1_n_n_wf
def dot_S16384x400_S400x400_S16384x400_1_0_0_1_n_n : DotDims S16384x400 S400x400 S16384x400 where
  lhsContracting := [1]
  rhsContracting := [0]
  lhsNonContracting := [0]
  rhsNonContracting := [1]
  lhsBatch := []
  rhsBatch := []
  wf := dot_S16384x400_S400x400_S16384x400_1_0_0_1_n_n_wf
def dot_S16384x400_S400x1_S16384x1_1_0_0_1_n_n : DotDims S16384x400 S400x1 S16384x1 where
  lhsContracting := [1]
  rhsContracting := [0]
  lhsNonContracting := [0]
  rhsNonContracting := [1]
  lhsBatch := []
  rhsBatch := []
  wf := dot_S16384x400_S400x1_S16384x1_1_0_0_1_n_n_wf

class Facts : Prop extends Facts₀ where

variable [Facts]
-- ==== Proof.FrameKernelIdeal.lean ====
/- (one hand pattern, in that script; the script writes the program's name in and repeats the per-window lines window by window)

  The frame of the program `KernelIdeal`: it runs to the end, faults nowhere and leaves its thirteen argument arrays as they
  were.  @main is fifty-four host operations (the two embedding gathers with their index arithmetic, the row sum of the
  first-order embeddings, the reshape and concatenation that build the dense input, the format changes of the weights)
  followed by one pallas_call on a grid of sixteen batch tiles.  None of the host operations writes an argument array
  (each writes its own result buffer), so the region finds the arguments as launched.  Every input window's staging
  buffer holds its block of the array at every grid point — the four batch-tiled windows are fetched at every point, the
  nine whole-array windows once, their block index never moving.  The body loads all thirteen input blocks whole, and
  stores ONE value, whole, into the output window: the sigmoid of the logit, a pure function of the thirteen blocks.  So
  after the body at point t the output buffer holds that function of the point's input blocks, and nothing else changed.
-/
import proofs.«101644_j2156073583145_1_alg».proof.Proof.Gen.KernelIdeal.Launch
import proofs.«101644_j2156073583145_1_alg».proof.Proof.Gen.KernelIdeal.Skeleton
import proofs.«101644_j2156073583145_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents folded through the host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reference that is the result buffer of none of the fifty-four operations keeps its launch contents: each operation
    writes exactly its result buffer (the three-operand concatenate too), and distinct references are distinct buffers. -/
local macro "unwritten" : tactic => `(tactic| (
  refine StableHlo.after_of_forall_not_mem (b := Proc.devRef .tc _) _ _ (List.forall_iff_forall_mem.mp ?_)
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

theorem V_main_arg0 (c : Dev nD) : V m c main_arg0 = m ((c : Thread nD τ).loc main_arg0) := by unwritten
theorem V_main_arg1 (c : Dev nD) : V m c main_arg1 = m ((c : Thread nD τ).loc main_arg1) := by unwritten
theorem V_main_arg2 (c : Dev nD) : V m c main_arg2 = m ((c : Thread nD τ).loc main_arg2) := by unwritten
theorem V_main_arg3 (c : Dev nD) : V m c main_arg3 = m ((c : Thread nD τ).loc main_arg3) := by unwritten
theorem V_main_arg4 (c : Dev nD) : V m c main_arg4 = m ((c : Thread nD τ).loc main_arg4) := by unwritten
theorem V_main_arg5 (c : Dev nD) : V m c main_arg5 = m ((c : Thread nD τ).loc main_arg5) := by unwritten
theorem V_main_arg6 (c : Dev nD) : V m c main_arg6 = m ((c : Thread nD τ).loc main_arg6) := by unwritten
theorem V_main_arg7 (c : Dev nD) : V m c main_arg7 = m ((c : Thread nD τ).loc main_arg7) := by unwritten
theorem V_main_arg8 (c : Dev nD) : V m c main_arg8 = m ((c : Thread nD τ).loc main_arg8) := by unwritten
theorem V_main_arg9 (c : Dev nD) : V m c main_arg9 = m ((c : Thread nD τ).loc main_arg9) := by unwritten
theorem V_main_arg10 (c : Dev nD) : V m c main_arg10 = m ((c : Thread nD τ).loc main_arg10) := by unwritten
theorem V_main_arg11 (c : Dev nD) : V m c main_arg11 = m ((c : Thread nD τ).loc main_arg11) := by unwritten
theorem V_main_arg12 (c : Dev nD) : V m c main_arg12 = m ((c : Thread nD τ).loc main_arg12) := by unwritten

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether fetched there or not (unfetched,
    the block index has not moved), for any proof data whose arrays are the region-entry contents and whose body leaves
    the block in place. -/

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## From the pipeline's post to the frame claim's -/

/-- The argument arrays after the run: one that a window stages is an input array of the pipeline, which ends at its
    entry contents; one that no window stages is among the other unscoped buffers, which the region leaves alone; and the
    entry contents of either are the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).1 12).trans (((dats 0 c).arrAt_in 12 rfl _).trans ((hA c 12).trans (V_main_arg5 m c))),
      ((h c).2 main_arg6 (Pipeline.mem_restRefs_of main_arg6 (by decide) (by decide))).trans (V_main_arg6 m c),
      ((h c).1 6).trans (((dats 0 c).arrAt_in 6 rfl _).trans ((hA c 6).trans (V_main_arg7 m c))),
      ((h c).2 main_arg8 (Pipeline.mem_restRefs_of main_arg8 (by decide) (by decide))).trans (V_main_arg8 m c),
      ((h c).1 8).trans (((dats 0 c).arrAt_in 8 rfl _).trans ((hA c 8).trans (V_main_arg9 m c))),
      ((h c).2 main_arg10 (Pipeline.mem_restRefs_of main_arg10 (by decide) (by decide))).trans (V_main_arg10 m c),
      ((h c).1 10).trans (((dats 0 c).arrAt_in 10 rfl _).trans ((hA c 10).trans (V_main_arg11 m c))),
      ((h c).2 main_arg12 (Pipeline.mem_restRefs_of main_arg12 (by decide) (by decide))).trans (V_main_arg12 m c)⟩) h

/-! ## The body -/

abbrev r0 : Rect S1024x26x16 := Rect.unit (s := S1024x26x16) ![0, 0, 0] S1024x26x16.size inb_S1024x26x16_S1024x26x16_0_0_0
abbrev r1 : Rect S1024x429 := Rect.unit (s := S1024x429) ![0, 0] S1024x429.size inb_S1024x429_S1024x429_0_0
abbrev r2 : Rect S1024x13 := Rect.unit (s := S1024x13) ![0, 0] S1024x13.size inb_S1024x13_S1024x13_0_0
abbrev r3 : Rect S1024x1 := Rect.unit (s := S1024x1) ![0, 0] S1024x1.size inb_S1024x1_S1024x1_0_0
abbrev r4 : Rect S13x1 := Rect.unit (s := S13x1) ![0, 0] S13x1.size inb_S13x1_S13x1_0_0
abbrev r5 : Rect S429x400 := Rect.unit (s := S429x400) ![0, 0] S429x400.size inb_S429x400_S429x400_0_0
abbrev r6 : Rect S400 := Rect.unit (s := S400) ![0] S400.size inb_S400_S400_0
abbrev r7 : Rect S400x400 := Rect.unit (s := S400x400) ![0, 0] S400x400.size inb_S400x400_S400x400_0_0
abbrev r8 : Rect S400 := Rect.unit (s := S400) ![0] S400.size inb_S400_S400_0
abbrev r9 : Rect S400x400 := Rect.unit (s := S400x400) ![0, 0] S400x400.size inb_S400x400_S400x400_0_0
abbrev r10 : Rect S400 := Rect.unit (s := S400) ![0] S400.size inb_S400_S400_0
abbrev r11 : Rect S400x1 := Rect.unit (s := S400x1) ![0, 0] S400x1.size inb_S400x1_S400x1_0_0
abbrev r12 : Rect S1 := Rect.unit (s := S1) ![0] S1.size inb_S1_S1_0
abbrev r13 : Rect S1024x1 := Rect.unit (s := S1024x1) ![0, 0] S1024x1.size inb_S1024x1_S1024x1_0_0

/-- What the body leaves in the output window's buffer, from the thirteen input blocks: its one store, whole, of the
    sigmoid of the logit — the first-order term's block, plus the dense features' row products summed, plus half the
    sum over the embedding axis of (square of the field sum minus field sum of squares), plus the three-layer
    perceptron's output, plus the bias. -/
def out13 (x0 : Vec F S1024x26x16 .f32) (x1 : Vec F S1024x429 .bf16) (x2 : Vec F S1024x13 .f32) (x3 : Vec F S1024x1 .f32) (x4 : Vec F S13x1 .f32) (x5 : Vec F S429x400 .bf16) (x6 : Vec F S400 .f32) (x7 : Vec F S400x400 .bf16) (x8 : Vec F S400 .f32) (x9 : Vec F S400x400 .bf16) (x10 : Vec F S400 .f32) (x11 : Vec F S400x1 .bf16) (x12 : Vec F S1 .f32) : Vec F S1024x1 .f32 :=
  View.canon [⟨r13, k0_pay1 (k0_pay2 (View.ld x0 r0)) (k0_pay3 (View.ld x1 r1) (View.ld x5 r5) (View.ld x6 r6) (View.ld x7 r7) (View.ld x8 r8) (View.ld x9 r9)) (View.ld x10 r10) (View.ld x11 r11) (View.ld x2 r2) (View.ld x4 r4) (View.ld x3 r3) (View.ld x12 r12)⟩]

/-- The one store covers the buffer. -/
theorem cover13 (p0 : Vec F S1024x1 .f32) (y : S1024x1.Idx) :
    ∃ pc ∈ ([⟨r13, p0⟩] : List (View.Piece (Elt F) S1024x1 .f32)), y ∈ pc.1.set :=
  View.cover_of_tiled [⟨r13, p0⟩] S1024x1.size (by rfl) y

set_option maxHeartbeats 4000000 in
/-- The body on whole staging memrefs, the inputs' at contents `xW` and the output's at anything, runs to the
    continuation holding the inputs' as they were and the output's at `out13` of them. -/
theorem sound_kernel (c : Dev nD) (E : Set ℕ) (i : grid0.Coords) (arg1 : Memref sig .tc .vmem S1024x26x16 .f32) (harg1 : arg1.IsWhole) (arg2 : Memref sig .tc .vmem S1024x429 .bf16) (harg2 : arg2.IsWhole) (arg3 : Memref sig .tc .vmem S1024x13 .f32) (harg3 : arg3.IsWhole) (arg4 : Memref sig .tc .vmem S1024x1 .f32) (harg4 : arg4.IsWhole) (arg5 : Memref sig .tc .vmem S13x1 .f32) (harg5 : arg5.IsWhole) (arg6 : Memref sig .tc .vmem S429x400 .bf16) (harg6 : arg6.IsWhole) (arg7 : Memref sig .tc .vmem S400 .f32) (harg7 : arg7.IsWhole) (arg8 : Memref sig .tc .vmem S400x400 .bf16) (harg8 : arg8.IsWhole) (arg9 : Memref sig .tc .vmem S400 .f32) (harg9 : arg9.IsWhole) (arg10 : Memref sig .tc .vmem S400x400 .bf16) (harg10 : arg10.IsWhole) (arg11 : Memref sig .tc .vmem S400 .f32) (harg11 : arg11.IsWhole) (arg12 : Memref sig .tc .vmem S400x1 .bf16) (harg12 : arg12.IsWhole) (arg13 : Memref sig .tc .vmem S1 .f32) (harg13 : arg13.IsWhole) (arg14 : Memref sig .tc .vmem S1024x1 .f32) (harg14 : arg14.IsWhole)
    (x0 : Vec F S1024x26x16 .f32) (x1 : Vec F S1024x429 .bf16) (x2 : Vec F S1024x13 .f32) (x3 : Vec F S1024x1 .f32) (x4 : Vec F S13x1 .f32) (x5 : Vec F S429x400 .bf16) (x6 : Vec F S400 .f32) (x7 : Vec F S400x400 .bf16) (x8 : Vec F S400 .f32) (x9 : Vec F S400x400 .bf16) (x10 : Vec F S400 .f32) (x11 : Vec F S400x1 .bf16) (x12 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out13 x0 x1 x2 x3 x4 x5 x6 x7 x8 x9 x10 x11 x12)) -∗ K ⟨⟩))
      ⊢ wp frame (wpE (defs₀ (F := F)) Variants.none c none) E (cc0__dnn_fm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__dnn_fm_kernel_eq_skeleton]; unfold cc0__dnn_fm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  try dsimp only
  exact View.read_writes_eq_canon _ _ _ (cover13 _)

/-! ## The pipeline's proof data -/

/-- The arrays as the region finds them; after the body at point `t` each input's buffer at its block and the
    output's at `out13` of the input blocks; nothing of the kernel's own kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = out13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
/-- At any point the inputs' memrefs hold their blocks, so the body's triple applies; the invariant and the core's
    obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; afterwards every array of the pipeline holds what the proof data
    says (an input its entry contents, the output those overwritten by what the body left at each write-back) and every
    other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Hand

end
-- ==== Proof.Spec.lean ====
/-
  The mathematics both programs compute, for ONE row of the batch, on the extended reals.

  A row carries: its first-order term `lin` (a sum of 26 gathered scalars, taken as given), its 13 dense features `xd`,
  its 26 gathered embedding vectors `fm f` of length 16, and the dense input `h0` of the perceptron (429 numbers: the
  26 × 16 embedding entries followed by the 13 dense features — how `h0` is laid out from `fm` and `xd` is the same
  host arithmetic in both programs and is never opened here).

    logit = lin + Σ_k xd k · wd k + ½ · Σ_e ((Σ_f fm f e)² − Σ_f (fm f e)²) + Σ_j h3 j · wf j + bias,
    h1 = relu(h0 · W0 + b0),  h2 = relu(h1 · W1 + b1),  h3 = relu(h2 · W2 + b2),

  and the result is the logistic sigmoid of the logit.  Sums are finite sums of extended reals; no law beyond
  reading each operation at an index is used to bring either program to this form, so no finiteness is needed.
-/
import Idealize.ShloMosaic.PureOps.Ideal
import Idealize.ShloMosaic.PureOps.Ideal.Laws

noncomputable section

namespace Cert.Spec

open Idealize.ShloMosaic

/-- The constant one half, as both programs spell it: the f32 word 0x3F000000 (never evaluated: the same word on both sides). -/
abbrev half : EReal := Ideal.ofBits .f32 0x3F000000#32

/-- One perceptron layer on a row: relu of the row times the weight matrix plus the bias. -/
def dense {K J : ℕ} (h : Fin K → EReal) (w : Fin K → Fin J → EReal) (b : Fin J → EReal) : Fin J → EReal :=
  fun j => max ((∑ k : Fin K, h k * w k j) + b j) 0

/-- The second-order term of a row: half the sum over the embedding axis of (square of the field sum minus field sum of
    squares). -/
def cross (fm : Fin 26 → Fin 16 → EReal) : EReal :=
  half * ∑ e : Fin 16, ((∑ f : Fin 26, fm f e) * (∑ f : Fin 26, fm f e) - ∑ f : Fin 26, fm f e * fm f e)

/-- The logit of a row, the five terms added left to right as both programs add them. -/
def logit (lin : EReal) (xd wd : Fin 13 → EReal) (fm : Fin 26 → Fin 16 → EReal) (h0 : Fin 429 → EReal)
    (w0 : Fin 429 → Fin 400 → EReal) (b0 : Fin 400 → EReal) (w1 : Fin 400 → Fin 400 → EReal) (b1 : Fin 400 → EReal)
    (w2 : Fin 400 → Fin 400 → EReal) (b2 : Fin 400 → EReal) (wf : Fin 400 → EReal) (bias : EReal) : EReal :=
  lin + (∑ k : Fin 13, xd k * wd k) + cross fm + (∑ j : Fin 400, dense (dense (dense h0 w0 b0) w1 b1) w2 b2 j * wf j) + bias

/-- The row's result. -/
def rowOut (lin : EReal) (xd wd : Fin 13 → EReal) (fm : Fin 26 → Fin 16 → EReal) (h0 : Fin 429 → EReal)
    (w0 : Fin 429 → Fin 400 → EReal) (b0 : Fin 400 → EReal) (w1 : Fin 400 → Fin 400 → EReal) (b1 : Fin 400 → EReal)
    (w2 : Fin 400 → Fin 400 → EReal) (b2 : Fin 400 → EReal) (wf : Fin 400 → EReal) (bias : EReal) : EReal :=
  Ideal.logistic (logit lin xd wd fm h0 w0 b0 w1 b1 w2 b2 wf bias)

/-- The f32 word 0x3F800000 is the real number one. -/
theorem ofBits_one_f32 : Ideal.ofBits .f32 0x3F800000#32 = 1 := by
  simp [Ideal.ofBits, Ideal.ieee]
  rw [← EReal.coe_mul, ← EReal.coe_one]; congr 1; norm_num

/-- The sigmoid spelled out with a negation, an exponential, an addition and a division (as jax expands it on the
    host) is the sigmoid: on the extended reals the one operation IS that expression. -/
theorem logistic_spelled (x : EReal) :
    Ideal.div (Ideal.ofBits .f32 0x3F800000#32) (Ideal.ofBits .f32 0x3F800000#32 + Ideal.exp (-x)) = Ideal.logistic x := by
  rw [ofBits_one_f32]; rfl

end Cert.Spec

end
-- ==== Proof.KernelPay.lean ====
/-
  The kernel body's stored value, read at one row of the batch tile: it is the row's result `Cert.Spec.rowOut` of that
  row of each batch-tiled input block and of the whole-array blocks (weights, biases).
-/
import proofs.«101644_j2156073583145_1_alg».proof.Proof.Gen.KernelIdeal.Skeleton
import proofs.«101644_j2156073583145_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Pay

open Idealize.ShloMosaic Idealize.ShloMosaic.TcCoe Idealize.ShloMosaic.ValueIdx Idealize.SL.Sem
open Cert.KernelIdeal Cert.KernelIdeal.Gen

/-! ## Sums over one axis, read at coordinates -/

/-- A sum over the middle axis of a rank-3 vector, at `(a, c)`, is the sum over `k` of the vector at `(a, k, c)`. -/
theorem sum_mid3 {n0 n1 n2 : ℕ} (src : FVec Ideal ⟨3, ![n0, n1, n2]⟩ .f32)
    (h : (⟨3, ![n0, n1, n2]⟩ : Shape).Reduces [1] ⟨2, ![n0, n2]⟩) (hφ : FKind.Formats .f32)
    (hacc : (0x00000000#32 : BitVec 32) = 0x00000000#32) (a : Fin n0) (c : Fin n2) :
    multiReduction .add [1] ⟨2, ![n0, n2]⟩ src 0x00000000#32 h hφ hacc (ix2 a c) = ∑ k : Fin n1, src (ix3 a k c) := by
  refine (Ideal.multiReduction_add_single src 0x00000000#32 h hφ hacc (ix2 a c)).trans ?_
  refine Finset.sum_congr rfl fun k _ => congrArg src (funext fun d => Fin.ext ?_)
  match d with
  | ⟨0, _⟩ => rfl
  | ⟨1, _⟩ => rfl
  | ⟨2, _⟩ => rfl

/-- A sum over the last axis of a rank-2 vector, at `a`, is the sum over `k` of the vector at `(a, k)`. -/
theorem sum_last2 {n0 n1 : ℕ} (src : FVec Ideal ⟨2, ![n0, n1]⟩ .f32)
    (h : (⟨2, ![n0, n1]⟩ : Shape).Reduces [1] ⟨1, ![n0]⟩) (hφ : FKind.Formats .f32)
    (hacc : (0x00000000#32 : BitVec 32) = 0x00000000#32) (a : Fin n0) :
    multiReduction .add [1] ⟨1, ![n0]⟩ src 0x00000000#32 h hφ hacc (ix1 a) = ∑ k : Fin n1, src (ix2 a k) := by
  refine (Ideal.multiReduction_add_single src 0x00000000#32 h hφ hacc (ix1 a)).trans ?_
  refine Finset.sum_congr rfl fun k _ => congrArg src (funext fun d => Fin.ext ?_)
  match d with
  | ⟨0, _⟩ => rfl
  | ⟨1, _⟩ => rfl

/-! ## Shape casts between a vector and a column -/

/-- An `[a]` vector cast to the column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the column at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## The second-order term -/

/-- The second-order payload at row `p`: half the sum over the embedding axis of the square of the field sum minus the
    field sum of squares, of that row's 26 × 16 block. -/
theorem pay2_apply (x0 : Vec Ideal S1024x26x16 .f32) (p : Fin 1024) :
    k0_pay2 (F := Ideal) x0 (ix2 p (0 : Fin 1)) = Cert.Spec.cross (fun f e => x0 (ix3 p f e)) := by
  unfold k0_pay2 Cert.Spec.cross
  simp only [shapeCast_self, mulf_apply, broadcast_apply, shapeCast_a_a1_apply]
  refine congrArg (Cert.Spec.half * ·) ?_
  refine (sum_last2 _ _ _ _ p).trans (Finset.sum_congr rfl fun e _ => ?_)
  exact congrArg₂ (· - ·) (congrArg₂ (· * ·) (sum_mid3 x0 _ _ _ p e) (sum_mid3 x0 _ _ _ p e)) (sum_mid3 (mulf x0 x0) _ _ _ p e)

/-! ## The three matrix products, read at coordinates

Each `tpu.matmul` into the zero accumulator, at `(p, j)`, is the sum over the one contracted coordinate `k` of the left
operand at `(p, k)` times the right operand at `(k, j)`. The operand indices of the dimension numbers are read axis by
axis, and the contraction index is re-indexed by its one coordinate. -/

/-! ### `[1024, 429] × [429, 400]` -/

theorem lhs_dot429_0 (i : S1024x400.Idx) (q : dot_S1024x429_S429x400_S1024x400_1_0_0_1_n_n.contr.Idx) :
    (dot_S1024x429_S429x400_S1024x400_1_0_0_1_n_n.lhsIdx i q 0).val = (i 0).val := by
  unfold DotDims.lhsIdx
  rw [dif_neg (show ¬(0 : Fin S1024x429.rank) ∈ dot_S1024x429_S429x400_S1024x400_1_0_0_1_n_n.lhsBatch by decide), dif_pos (show (0 : Fin S1024x429.rank) ∈ dot_S1024x429_S429x400_S1024x400_1_0_0_1_n_n.lhsNonContracting by decide)]
  rfl
theorem lhs_dot429_1 (i : S1024x400.Idx) (q : dot_S1024x429_S429x400_S1024x400_1_0_0_1_n_n.contr.Idx) :
    (dot_S1024x429_S429x400_S1024x400_1_0_0_1_n_n.lhsIdx i q 1).val = (q ⟨0, by decide⟩).val :=
  dot_S1024x429_S429x400_S1024x400_1_0_0_1_n_n.lhsIdx_val_of_single rfl i q
theorem rhs_dot429_0 (i : S1024x400.Idx) (q : dot_S1024x429_S429x400_S1024x400_1_0_0_1_n_n.contr.Idx) :
    (dot_S1024x429_S429x400_S1024x400_1_0_0_1_n_n.rhsIdx i q 0).val = (q ⟨0, by decide⟩).val :=
  dot_S1024x429_S429x400_S1024x400_1_0_0_1_n_n.rhsIdx_val_of_single rfl i q
theorem rhs_dot429_1 (i : S1024x400.Idx) (q : dot_S1024x429_S429x400_S1024x400_1_0_0_1_n_n.contr.Idx) :
    (dot_S1024x429_S429x400_S1024x400_1_0_0_1_n_n.rhsIdx i q 1).val = (i 1).val := by
  unfold DotDims.rhsIdx
  rw [dif_neg (show ¬(1 : Fin S429x400.rank) ∈ dot_S1024x429_S429x400_S1024x400_1_0_0_1_n_n.rhsBatch by decide), dif_pos (show (1 : Fin S429x400.rank) ∈ dot_S1024x429_S429x400_S1024x400_1_0_0_1_n_n.rhsNonContracting by decide)]
  rfl

/-- The first layer's product at `(p, j)`. -/
theorem matmul429_apply (lhs : FVec Ideal S1024x429 .bf16) (rhs : FVec Ideal S429x400 .bf16) (p : Fin 1024) (j : Fin 400) :
    matmul dot_S1024x429_S429x400_S1024x400_1_0_0_1_n_n none lhs rhs (constant (F := Ideal) S1024x400 .f32 0x00000000#32) (ix2 p j)
      = ∑ k : Fin 429, lhs (ix2 p k) * rhs (ix2 k j) := by
  simp only [matmul]
  rw [Ideal.matmul_constant_zero_apply, ← Equiv.sum_comp (ValueIdx.contrEquiv1 dot_S1024x429_S429x400_S1024x400_1_0_0_1_n_n 429 rfl rfl).symm]
  refine Finset.sum_congr rfl fun k _ => ?_
  have hk := ValueIdx.contrEquiv1_symm_val dot_S1024x429_S429x400_S1024x400_1_0_0_1_n_n 429 rfl rfl k
  have el : dot_S1024x429_S429x400_S1024x400_1_0_0_1_n_n.lhsIdx (ix2 p j) ((ValueIdx.contrEquiv1 dot_S1024x429_S429x400_S1024x400_1_0_0_1_n_n 429 rfl rfl).symm k) = ix2 p k := funext fun a => Fin.ext (by
    match a with
    | ⟨0, _⟩ => exact lhs_dot429_0 _ _
    | ⟨1, _⟩ => exact (lhs_dot429_1 _ _).trans hk)
  have er : dot_S1024x429_S429x400_S1024x400_1_0_0_1_n_n.rhsIdx (ix2 p j) ((ValueIdx.contrEquiv1 dot_S1024x429_S429x400_S1024x400_1_0_0_1_n_n 429 rfl rfl).symm k) = ix2 k j := funext fun a => Fin.ext (by
    match a with
    | ⟨0, _⟩ => exact (rhs_dot429_0 _ _).trans hk
    | ⟨1, _⟩ => exact rhs_dot429_1 _ _)
  rw [el, er]

/-! ### `[1024, 400] × [400, 400]` -/

theorem lhs_dot400_0 (i : S1024x400.Idx) (q : dot_S1024x400_S400x400_S1024x400_1_0_0_1_n_n.contr.Idx) :
    (dot_S1024x400_S400x400_S1024x400_1_0_0_1_n_n.lhsIdx i q 0).val = (i 0).val := by
  unfold DotDims.lhsIdx
  rw [dif_neg (show ¬(0 : Fin S1024x400.rank) ∈ dot_S1024x400_S400x400_S1024x400_1_0_0_1_n_n.lhsBatch by decide), dif_pos (show (0 : Fin S1024x400.rank) ∈ dot_S1024x400_S400x400_S1024x400_1_0_0_1_n_n.lhsNonContracting by decide)]
  rfl
theorem lhs_dot400_1 (i : S1024x400.Idx) (q : dot_S1024x400_S400x400_S1024x400_1_0_0_1_n_n.contr.Idx) :
    (dot_S1024x400_S400x400_S1024x400_1_0_0_1_n_n.lhsIdx i q 1).val = (q ⟨0, by decide⟩).val :=
  dot_S1024x400_S400x400_S1024x400_1_0_0_1_n_n.lhsIdx_val_of_single rfl i q
theorem rhs_dot400_0 (i : S1024x400.Idx) (q : dot_S1024x400_S400x400_S1024x400_1_0_0_1_n_n.contr.Idx) :
    (dot_S1024x400_S400x400_S1024x400_1_0_0_1_n_n.rhsIdx i q 0).val = (q ⟨0, by decide⟩).val :=
  dot_S1024x400_S400x400_S1024x400_1_0_0_1_n_n.rhsIdx_val_of_single rfl i q
theorem rhs_dot400_1 (i : S1024x400.Idx) (q : dot_S1024x400_S400x400_S1024x400_1_0_0_1_n_n.contr.Idx) :
    (dot_S1024x400_S400x400_S1024x400_1_0_0_1_n_n.rhsIdx i q 1).val = (i 1).val := by
  unfold DotDims.rhsIdx
  rw [dif_neg (show ¬(1 : Fin S400x400.rank) ∈ dot_S1024x400_S400x400_S1024x400_1_0_0_1_n_n.rhsBatch by decide), dif_pos (show (1 : Fin S400x400.rank) ∈ dot_S1024x400_S400x400_S1024x400_1_0_0_1_n_n.rhsNonContracting by decide)]
  rfl

/-- The second and third layers' product at `(p, j)`. -/
theorem matmul400_apply (lhs : FVec Ideal S1024x400 .bf16) (rhs : FVec Ideal S400x400 .bf16) (p : Fin 1024) (j : Fin 400) :
    matmul dot_S1024x400_S400x400_S1024x400_1_0_0_1_n_n none lhs rhs (constant (F := Ideal) S1024x400 .f32 0x00000000#32) (ix2 p j)
      = ∑ k : Fin 400, lhs (ix2 p k) * rhs (ix2 k j) := by
  simp only [matmul]
  rw [Ideal.matmul_constant_zero_apply, ← Equiv.sum_comp (ValueIdx.contrEquiv1 dot_S1024x400_S400x400_S1024x400_1_0_0_1_n_n 400 rfl rfl).symm]
  refine Finset.sum_congr rfl fun k _ => ?_
  have hk := ValueIdx.contrEquiv1_symm_val dot_S1024x400_S400x400_S1024x400_1_0_0_1_n_n 400 rfl rfl k
  have el : dot_S1024x400_S400x400_S1024x400_1_0_0_1_n_n.lhsIdx (ix2 p j) ((ValueIdx.contrEquiv1 dot_S1024x400_S400x400_S1024x400_1_0_0_1_n_n 400 rfl rfl).symm k) = ix2 p k := funext fun a => Fin.ext (by
    match a with
    | ⟨0, _⟩ => exact lhs_dot400_0 _ _
    | ⟨1, _⟩ => exact (lhs_dot400_1 _ _).trans hk)
  have er : dot_S1024x400_S400x400_S1024x400_1_0_0_1_n_n.rhsIdx (ix2 p j) ((ValueIdx.contrEquiv1 dot_S1024x400_S400x400_S1024x400_1_0_0_1_n_n 400 rfl rfl).symm k) = ix2 k j := funext fun a => Fin.ext (by
    match a with
    | ⟨0, _⟩ => exact (rhs_dot400_0 _ _).trans hk
    | ⟨1, _⟩ => exact rhs_dot400_1 _ _)
  rw [el, er]

/-! ### `[1024, 400] × [400, 1]` -/

theorem lhs_dotcol_0 (i : S1024x1.Idx) (q : dot_S1024x400_S400x1_S1024x1_1_0_0_1_n_n.contr.Idx) :
    (dot_S1024x400_S400x1_S1024x1_1_0_0_1_n_n.lhsIdx i q 0).val = (i 0).val := by
  unfold DotDims.lhsIdx
  rw [dif_neg (show ¬(0 : Fin S1024x400.rank) ∈ dot_S1024x400_S400x1_S1024x1_1_0_0_1_n_n.lhsBatch by decide), dif_pos (show (0 : Fin S1024x400.rank) ∈ dot_S1024x400_S400x1_S1024x1_1_0_0_1_n_n.lhsNonContracting by decide)]
  rfl
theorem lhs_dotcol_1 (i : S1024x1.Idx) (q : dot_S1024x400_S400x1_S1024x1_1_0_0_1_n_n.contr.Idx) :
    (dot_S1024x400_S400x1_S1024x1_1_0_0_1_n_n.lhsIdx i q 1).val = (q ⟨0, by decide⟩).val :=
  dot_S1024x400_S400x1_S1024x1_1_0_0_1_n_n.lhsIdx_val_of_single rfl i q
theorem rhs_dotcol_0 (i : S1024x1.Idx) (q : dot_S1024x400_S400x1_S1024x1_1_0_0_1_n_n.contr.Idx) :
    (dot_S1024x400_S400x1_S1024x1_1_0_0_1_n_n.rhsIdx i q 0).val = (q ⟨0, by decide⟩).val :=
  dot_S1024x400_S400x1_S1024x1_1_0_0_1_n_n.rhsIdx_val_of_single rfl i q
theorem rhs_dotcol_1 (i : S1024x1.Idx) (q : dot_S1024x400_S400x1_S1024x1_1_0_0_1_n_n.contr.Idx) :
    (dot_S1024x400_S400x1_S1024x1_1_0_0_1_n_n.rhsIdx i q 1).val = (i 1).val := by
  unfold DotDims.rhsIdx
  rw [dif_neg (show ¬(1 : Fin S400x1.rank) ∈ dot_S1024x400_S400x1_S1024x1_1_0_0_1_n_n.rhsBatch by decide), dif_pos (show (1 : Fin S400x1.rank) ∈ dot_S1024x400_S400x1_S1024x1_1_0_0_1_n_n.rhsNonContracting by decide)]
  rfl

/-- The last product, against the one output column, at `(p, u)`. -/
theorem matmulcol_apply (lhs : FVec Ideal S1024x400 .bf16) (rhs : FVec Ideal S400x1 .bf16) (p : Fin 1024) (u : Fin 1) :
    matmul dot_S1024x400_S400x1_S1024x1_1_0_0_1_n_n none lhs rhs (constant (F := Ideal) S1024x1 .f32 0x00000000#32) (ix2 p u)
      = ∑ k : Fin 400, lhs (ix2 p k) * rhs (ix2 k u) := by
  simp only [matmul]
  rw [Ideal.matmul_constant_zero_apply, ← Equiv.sum_comp (ValueIdx.contrEquiv1 dot_S1024x400_S400x1_S1024x1_1_0_0_1_n_n 400 rfl rfl).symm]
  refine Finset.sum_congr rfl fun k _ => ?_
  have hk := ValueIdx.contrEquiv1_symm_val dot_S1024x400_S400x1_S1024x1_1_0_0_1_n_n 400 rfl rfl k
  have el : dot_S1024x400_S400x1_S1024x1_1_0_0_1_n_n.lhsIdx (ix2 p u) ((ValueIdx.contrEquiv1 dot_S1024x400_S400x1_S1024x1_1_0_0_1_n_n 400 rfl rfl).symm k) = ix2 p k := funext fun a => Fin.ext (by
    match a with
    | ⟨0, _⟩ => exact lhs_dotcol_0 _ _
    | ⟨1, _⟩ => exact (lhs_dotcol_1 _ _).trans hk)
  have er : dot_S1024x400_S400x1_S1024x1_1_0_0_1_n_n.rhsIdx (ix2 p u) ((ValueIdx.contrEquiv1 dot_S1024x400_S400x1_S1024x1_1_0_0_1_n_n 400 rfl rfl).symm k) = ix2 k u := funext fun a => Fin.ext (by
    match a with
    | ⟨0, _⟩ => exact (rhs_dotcol_0 _ _).trans hk
    | ⟨1, _⟩ => exact rhs_dotcol_1 _ _)
  rw [el, er]

/-! ## One perceptron layer's bias and relu -/

/-- A product block plus the bias row broadcast over the rows, relu'd against the zero splat and narrowed (the identity on
    the extended reals), at `(p, j)`: the maximum of the block there plus the bias at `j`, and zero. -/
theorem relu_bias_apply (m : FVec Ideal S1024x400 .f32) (b : Vec Ideal S400 .f32) (h1 : S400.ShapeCasts S1x400)
    (h2 : S1x400.Broadcasts S1024x400) (h3 : FTy.bits .bf16 < FTy.bits .f32) (p : Fin 1024) (j : Fin 400) :
    (truncf .bf16 (maximumf (addf m (broadcastTo S1024x400 (shapeCast S1x400 b h1) h2))
        (broadcast S1024x400 (Scalar.ofBits (F := Ideal) .f32 0x00000000#32))) h3 : FVec Ideal S1024x400 .bf16) (ix2 p j)
      = max (m (ix2 p j) + b (ix1 j)) 0 := by
  show max (m (ix2 p j) + broadcastTo S1024x400 (shapeCast S1x400 b h1) h2 (ix2 p j)) (Ideal.ofBits .f32 0x00000000#32) = _
  rw [broadcastTo_1b_ab_apply, shapeCast_a_1a_apply, Ideal.ofBits_zero_f32]

/-! ## The first three layers, up to the third product -/

/-- The perceptron payload at `(p, j)`: the third layer's product, the sum over `k` of the second layer's output of
    row `p` at `k` times the third weight matrix at `(k, j)`. -/
theorem pay3_apply (x1 : Vec Ideal S1024x429 .bf16) (x5 : Vec Ideal S429x400 .bf16) (x6 : Vec Ideal S400 .f32)
    (x7 : Vec Ideal S400x400 .bf16) (x8 : Vec Ideal S400 .f32) (x9 : Vec Ideal S400x400 .bf16) (p : Fin 1024) (j : Fin 400) :
    k0_pay3 (F := Ideal) x1 x5 x6 x7 x8 x9 (ix2 p j)
      = ∑ k : Fin 400, Cert.Spec.dense (Cert.Spec.dense (fun k => x1 (ix2 p k)) (fun k j => x5 (ix2 k j)) (fun j => x6 (ix1 j)))
          (fun k j => x7 (ix2 k j)) (fun j => x8 (ix1 j)) k * x9 (ix2 k j) := by
  unfold k0_pay3
  simp only [shapeCast_self]
  refine (matmul400_apply _ x9 p j).trans (Finset.sum_congr rfl fun k2 _ => congrArg (· * x9 (ix2 k2 j)) ?_)
  refine (relu_bias_apply _ x8 _ _ _ p k2).trans ?_
  refine congrArg (fun t => max (t + x8 (ix1 k2)) 0) ?_
  refine (matmul400_apply _ x7 p k2).trans (Finset.sum_congr rfl fun k1 _ => congrArg (· * x7 (ix2 k1 k2)) ?_)
  refine (relu_bias_apply _ x6 _ _ _ p k1).trans ?_
  exact congrArg (fun t => max (t + x6 (ix1 k1)) 0) (matmul429_apply x1 x5 p k1)

/-! ## The stored value -/

/-- The logistic sigmoid of a vector, at an index, is the sigmoid of the element. -/
theorem logistic_apply {s : Shape} {φ : FTy} (x : FVec Ideal s φ) (i : s.Idx) : logistic x i = Ideal.logistic (x i) := rfl

/-- The stored value at row `p`, over any second-order column `c` and any third product block `m`: the sigmoid of the
    five terms added left to right: the first-order term, the dense-feature row sum, the second-order term, the last product
    of the third layer's output (bias, relu) with the output column, and the bias. -/
theorem pay1_apply (c : FVec Ideal S1024x1 .f32) (m : FVec Ideal S1024x400 .f32) (x10 : Vec Ideal S400 .f32)
    (x11 : Vec Ideal S400x1 .bf16) (x2 : Vec Ideal S1024x13 .f32) (x4 : Vec Ideal S13x1 .f32) (x3 : Vec Ideal S1024x1 .f32)
    (x12 : Vec Ideal S1 .f32) (p : Fin 1024) :
    k0_pay1 (F := Ideal) c m x10 x11 x2 x4 x3 x12 (ix2 p (0 : Fin 1))
      = Ideal.logistic (x3 (ix2 p (0 : Fin 1)) + (∑ k : Fin 13, x2 (ix2 p k) * x4 (ix2 k (0 : Fin 1))) + c (ix2 p (0 : Fin 1))
          + (∑ j : Fin 400, max (m (ix2 p j) + x10 (ix1 j)) 0 * x11 (ix2 j (0 : Fin 1))) + x12 (ix1 (0 : Fin 1))) := by
  unfold k0_pay1
  simp only [logistic_apply, shapeCast_self, addf_apply, shapeCast_a_a1_apply, broadcastTo_1b_ab_apply, shapeCast_a_1a_apply]
  refine congrArg Ideal.logistic ?_
  refine congrArg₂ (· + ·) (congrArg₂ (· + ·) (congrArg₂ (· + ·) (congrArg₂ (· + ·) rfl ?_) rfl) ?_) rfl
  · refine (sum_last2 _ _ _ _ p).trans (Finset.sum_congr rfl fun k _ => ?_)
    show x2 (ix2 p k) * broadcastTo S1024x13 (shapeCast S1x13 (shapeCast S13 x4 _) _) _ (ix2 p k) = _
    rw [broadcastTo_1b_ab_apply, shapeCast_a_1a_apply, shapeCast_a1_a_apply]
  · refine (matmulcol_apply _ x11 p 0).trans (Finset.sum_congr rfl fun j _ => congrArg (· * x11 (ix2 j (0 : Fin 1))) ?_)
    exact relu_bias_apply m x10 _ _ _ p j

/-! ## The row's result -/

theorem pay_apply (x0 : Vec Ideal S1024x26x16 .f32) (x1 : Vec Ideal S1024x429 .bf16) (x2 : Vec Ideal S1024x13 .f32) (x3 : Vec Ideal S1024x1 .f32)
    (x4 : Vec Ideal S13x1 .f32) (x5 : Vec Ideal S429x400 .bf16) (x6 : Vec Ideal S400 .f32) (x7 : Vec Ideal S400x400 .bf16) (x8 : Vec Ideal S400 .f32)
    (x9 : Vec Ideal S400x400 .bf16) (x10 : Vec Ideal S400 .f32) (x11 : Vec Ideal S400x1 .bf16) (x12 : Vec Ideal S1 .f32) (p : Fin 1024) :
    k0_pay1 (F := Ideal) (k0_pay2 x0) (k0_pay3 x1 x5 x6 x7 x8 x9) x10 x11 x2 x4 x3 x12 (ix2 p (0 : Fin 1))
      = Cert.Spec.rowOut (x3 (ix2 p (0 : Fin 1))) (fun k => x2 (ix2 p k)) (fun k => x4 (ix2 k (0 : Fin 1))) (fun f e => x0 (ix3 p f e)) (fun k => x1 (ix2 p k))
          (fun k j => x5 (ix2 k j)) (fun j => x6 (ix1 j)) (fun k j => x7 (ix2 k j)) (fun j => x8 (ix1 j)) (fun k j => x9 (ix2 k j)) (fun j => x10 (ix1 j))
          (fun j => x11 (ix2 j (0 : Fin 1))) (x12 (ix1 (0 : Fin 1))) := by
  refine (pay1_apply (k0_pay2 x0) (k0_pay3 x1 x5 x6 x7 x8 x9) x10 x11 x2 x4 x3 x12 p).trans ?_
  unfold Cert.Spec.rowOut Cert.Spec.logit
  refine congrArg Ideal.logistic ?_
  refine congrArg₂ (· + ·) (congrArg₂ (· + ·) (congrArg₂ (· + ·) rfl (pay2_apply x0 p)) ?_) rfl
  refine Finset.sum_congr rfl fun j _ => congrArg (· * x11 (ix2 j (0 : Fin 1))) ?_
  exact congrArg (fun t => max (t + x10 (ix1 j)) 0) (pay3_apply x1 x5 x6 x7 x8 x9 p j)

end Cert.KernelIdeal.Pay

end
-- ==== Proof.KernelValue.lean ====
/-
  What the idealized kernel program leaves in its result array.

  The pallas_call runs over sixteen batch tiles of 1024 rows.  At tile t the four batch-tiled windows (the gathered
  embeddings, the dense input, the dense features, the first-order sum) hold rows 1024·t … 1024·t + 1023 of their
  arrays, and the nine whole-array windows (weights and biases) hold their arrays whole.  The body's stored value at row
  p of the tile is the row function `Cert.Spec.rowOut` of row p of each block (the payload lemma), hence of row
  1024·t + p of each array; the tile is written back to rows 1024·t … 1024·t + 1023 of the result; the sixteen tiles
  cover all 16384 rows.  So the result array ends at the row function of the arrays the region found, row by row.
-/
import proofs.«101644_j2156073583145_1_alg».proof.Proof.FrameKernelIdeal
import proofs.«101644_j2156073583145_1_alg».proof.Proof.KernelPay
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (m : (ℓ : Loc nD τ sig) → Buf (Elt Ideal) ℓ) (ρ : Dev nD → PrngReg)

/-! ## The arrays the region finds, each at its literal type -/

abbrev A0 (c : Dev nD) : Vec Ideal S16384x26x16 .f32 := V m c main_v36
abbrev A1 (c : Dev nD) : Vec Ideal S16384x429 .bf16 := V m c main_v39
abbrev A2 (c : Dev nD) : Vec Ideal S16384x13 .f32 := V m c main_arg1
abbrev A3 (c : Dev nD) : Vec Ideal S16384x1 .f32 := V m c main_v21
abbrev A4 (c : Dev nD) : Vec Ideal S13x1 .f32 := V m c main_arg4
abbrev A5 (c : Dev nD) : Vec Ideal S429x400 .bf16 := V m c main_v40
abbrev A6 (c : Dev nD) : Vec Ideal S400 .f32 := V m c main_arg7
abbrev A7 (c : Dev nD) : Vec Ideal S400x400 .bf16 := V m c main_v41
abbrev A8 (c : Dev nD) : Vec Ideal S400 .f32 := V m c main_arg9
abbrev A9 (c : Dev nD) : Vec Ideal S400x400 .bf16 := V m c main_v42
abbrev A10 (c : Dev nD) : Vec Ideal S400 .f32 := V m c main_arg11
abbrev A11 (c : Dev nD) : Vec Ideal S400x1 .bf16 := V m c main_v43
abbrev A12 (c : Dev nD) : Vec Ideal S1 .f32 := V m c main_arg5

/-- The result at batch row `b`: the row function of row `b` of the batch-indexed arrays and of the weights. -/
def Grow (c : Dev nD) (b : Fin 16384) : EReal :=
  Cert.Spec.rowOut (A3 m c (ix2 b (0 : Fin 1))) (fun k => A2 m c (ix2 b k)) (fun k => A4 m c (ix2 k (0 : Fin 1)))
    (fun f e => A0 m c (ix3 b f e)) (fun k => A1 m c (ix2 b k))
    (fun k j => A5 m c (ix2 k j)) (fun j => A6 m c (ix1 j)) (fun k j => A7 m c (ix2 k j)) (fun j => A8 m c (ix1 j))
    (fun k j => A9 m c (ix2 k j)) (fun j => A10 m c (ix1 j)) (fun j => A11 m c (ix2 j (0 : Fin 1))) (A12 m c (ix1 (0 : Fin 1)))

/-- The whole result array. -/
def G (c : Dev nD) : Vec Ideal S16384x1 .f32 := fun i => Grow m c ⟨(i 0).val, (i 0).isLt⟩

/-! ## The index maps, decided over the sixteen grid points -/

/-- The batch-tiled windows sit at block t on the batch axis and at block 0 on the others. -/
theorem idx_tiled : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_13.index t (0 : Fin 2) = t.val ∧ win0_13.index t (1 : Fin 2) = 0 :=
  (by decide +kernel : ∀ t : Fin grid0.N, _)

/-- The whole-array windows sit at block 0 on every axis. -/
theorem idx_whole : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0 :=
  (by decide +kernel : ∀ t : Fin grid0.N, _)

theorem t_lt (t : Fin cfg0.N) : t.val < 16 := lt_of_lt_of_eq t.isLt N_0

/-- Row p of tile t is batch row 1024·t + p. -/
def row (t : Fin cfg0.N) (p : Fin 1024) : Fin 16384 :=
  ⟨t.val * 1024 + p.val, by have := t_lt t; have := p.isLt; omega⟩

/-! ## The blocks, read -/

theorem blk0 (c : Dev nD) (t : Fin cfg0.N) (p : Fin 1024) (f : Fin 26) (e : Fin 16) :
    iblk m c 0 t (ix3 p f e) = A0 m c (ix3 (row t p) f e) := by
  obtain ⟨h0, h1, h2, -⟩ := idx_tiled t
  show V m c main_v36 (((cfg0.win 0).blk t).view.emb (ix3 p f e)) = V m c main_v36 (ix3 (row t p) f e)
  refine congrArg (V m c main_v36) (funext fun a => Fin.ext ?_)
  match a with
  | ⟨0, _⟩ => show win0_0.index t (0 : Fin 3) * 1024 + 1 * p.val = t.val * 1024 + p.val; omega
  | ⟨1, _⟩ => show win0_0.index t (1 : Fin 3) * 26 + 1 * f.val = f.val; omega
  | ⟨2, _⟩ => show win0_0.index t (2 : Fin 3) * 16 + 1 * e.val = e.val; omega

theorem blk1 (c : Dev nD) (t : Fin cfg0.N) (p : Fin 1024) (k : Fin 429) :
    iblk m c 1 t (ix2 p k) = A1 m c (ix2 (row t p) k) := by
  obtain ⟨-, -, -, h0, h1, -⟩ := idx_tiled t
  show V m c main_v39 (((cfg0.win 1).blk t).view.emb (ix2 p k)) = V m c main_v39 (ix2 (row t p) k)
  refine congrArg (V m c main_v39) (funext fun a => Fin.ext ?_)
  match a with
  | ⟨0, _⟩ => show win0_1.index t (0 : Fin 2) * 1024 + 1 * p.val = t.val * 1024 + p.val; omega
  | ⟨1, _⟩ => show win0_1.index t (1 : Fin 2) * 429 + 1 * k.val = k.val; omega

theorem blk2 (c : Dev nD) (t : Fin cfg0.N) (p : Fin 1024) (k : Fin 13) :
    iblk m c 2 t (ix2 p k) = A2 m c (ix2 (row t p) k) := by
  obtain ⟨-, -, -, -, -, h0, h1, -⟩ := idx_tiled t
  show V m c main_arg1 (((cfg0.win 2).blk t).view.emb (ix2 p k)) = V m c main_arg1 (ix2 (row t p) k)
  refine congrArg (V m c main_arg1) (funext fun a => Fin.ext ?_)
  match a with
  | ⟨0, _⟩ => show win0_2.index t (0 : Fin 2) * 1024 + 1 * p.val = t.val * 1024 + p.val; omega
  | ⟨1, _⟩ => show win0_2.index t (1 : Fin 2) * 13 + 1 * k.val = k.val; omega

theorem blk3 (c : Dev nD) (t : Fin cfg0.N) (p : Fin 1024) (q : Fin 1) :
    iblk m c 3 t (ix2 p q) = A3 m c (ix2 (row t p) q) := by
  obtain ⟨-, -, -, -, -, -, -, h0, h1, -⟩ := idx_tiled t
  show V m c main_v21 (((cfg0.win 3).blk t).view.emb (ix2 p q)) = V m c main_v21 (ix2 (row t p) q)
  refine congrArg (V m c main_v21) (funext fun a => Fin.ext ?_)
  match a with
  | ⟨0, _⟩ => show win0_3.index t (0 : Fin 2) * 1024 + 1 * p.val = t.val * 1024 + p.val; omega
  | ⟨1, _⟩ => show win0_3.index t (1 : Fin 2) * 1 + 1 * q.val = q.val; omega

theorem blk4 (c : Dev nD) (t : Fin cfg0.N) : iblk m c 4 t = A4 m c := by
  obtain ⟨h0, h1, -⟩ := idx_whole t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 13 + 1 * (y 0).val = (y 0).val; omega
  | ⟨1, _⟩ => show win0_4.index t (1 : Fin 2) * 1 + 1 * (y 1).val = (y 1).val; omega

theorem blk5 (c : Dev nD) (t : Fin cfg0.N) : iblk m c 5 t = A5 m c := by
  obtain ⟨-, -, h0, h1, -⟩ := idx_whole t
  funext y
  show V m c main_v40 (((cfg0.win 5).blk t).view.emb y) = V m c main_v40 y
  refine congrArg (V m c main_v40) (funext fun a => Fin.ext ?_)
  match a with
  | ⟨0, _⟩ => show win0_5.index t (0 : Fin 2) * 429 + 1 * (y 0).val = (y 0).val; omega
  | ⟨1, _⟩ => show win0_5.index t (1 : Fin 2) * 400 + 1 * (y 1).val = (y 1).val; omega

theorem blk6 (c : Dev nD) (t : Fin cfg0.N) : iblk m c 6 t = A6 m c := by
  obtain ⟨-, -, -, -, h0, -⟩ := idx_whole t
  funext y
  show V m c main_arg7 (((cfg0.win 6).blk t).view.emb y) = V m c main_arg7 y
  refine congrArg (V m c main_arg7) (funext fun a => Fin.ext ?_)
  match a with
  | ⟨0, _⟩ => show win0_6.index t (0 : Fin 1) * 400 + 1 * (y 0).val = (y 0).val; omega

theorem blk7 (c : Dev nD) (t : Fin cfg0.N) : iblk m c 7 t = A7 m c := by
  obtain ⟨-, -, -, -, -, h0, h1, -⟩ := idx_whole t
  funext y
  show V m c main_v41 (((cfg0.win 7).blk t).view.emb y) = V m c main_v41 y
  refine congrArg (V m c main_v41) (funext fun a => Fin.ext ?_)
  match a with
  | ⟨0, _⟩ => show win0_7.index t (0 : Fin 2) * 400 + 1 * (y 0).val = (y 0).val; omega
  | ⟨1, _⟩ => show win0_7.index t (1 : Fin 2) * 400 + 1 * (y 1).val = (y 1).val; omega

theorem blk8 (c : Dev nD) (t : Fin cfg0.N) : iblk m c 8 t = A8 m c := by
  obtain ⟨-, -, -, -, -, -, -, h0, -⟩ := idx_whole t
  funext y
  show V m c main_arg9 (((cfg0.win 8).blk t).view.emb y) = V m c main_arg9 y
  refine congrArg (V m c main_arg9) (funext fun a => Fin.ext ?_)
  match a with
  | ⟨0, _⟩ => show win0_8.index t (0 : Fin 1) * 400 + 1 * (y 0).val = (y 0).val; omega

theorem blk9 (c : Dev nD) (t : Fin cfg0.N) : iblk m c 9 t = A9 m c := by
  obtain ⟨-, -, -, -, -, -, -, -, h0, h1, -⟩ := idx_whole t
  funext y
  show V m c main_v42 (((cfg0.win 9).blk t).view.emb y) = V m c main_v42 y
  refine congrArg (V m c main_v42) (funext fun a => Fin.ext ?_)
  match a with
  | ⟨0, _⟩ => show win0_9.index t (0 : Fin 2) * 400 + 1 * (y 0).val = (y 0).val; omega
  | ⟨1, _⟩ => show win0_9.index t (1 : Fin 2) * 400 + 1 * (y 1).val = (y 1).val; omega

theorem blk10 (c : Dev nD) (t : Fin cfg0.N) : iblk m c 10 t = A10 m c := by
  obtain ⟨-, -, -, -, -, -, -, -, -, -, h0, -⟩ := idx_whole t
  funext y
  show V m c main_arg11 (((cfg0.win 10).blk t).view.emb y) = V m c main_arg11 y
  refine congrArg (V m c main_arg11) (funext fun a => Fin.ext ?_)
  match a with
  | ⟨0, _⟩ => show win0_10.index t (0 : Fin 1) * 400 + 1 * (y 0).val = (y 0).val; omega

theorem blk11 (c : Dev nD) (t : Fin cfg0.N) : iblk m c 11 t = A11 m c := by
  obtain ⟨-, -, -, -, -, -, -, -, -, -, -, h0, h1, -⟩ := idx_whole t
  funext y
  show V m c main_v43 (((cfg0.win 11).blk t).view.emb y) = V m c main_v43 y
  refine congrArg (V m c main_v43) (funext fun a => Fin.ext ?_)
  match a with
  | ⟨0, _⟩ => show win0_11.index t (0 : Fin 2) * 400 + 1 * (y 0).val = (y 0).val; omega
  | ⟨1, _⟩ => show win0_11.index t (1 : Fin 2) * 1 + 1 * (y 1).val = (y 1).val; omega

theorem blk12 (c : Dev nD) (t : Fin cfg0.N) : iblk m c 12 t = A12 m c := by
  obtain ⟨-, -, -, -, -, -, -, -, -, -, -, -, -, h0⟩ := idx_whole t
  funext y
  show V m c main_arg5 (((cfg0.win 12).blk t).view.emb y) = V m c main_arg5 y
  refine congrArg (V m c main_arg5) (funext fun a => Fin.ext ?_)
  match a with
  | ⟨0, _⟩ => show win0_12.index t (0 : Fin 1) * 1 + 1 * (y 0).val = (y 0).val; omega

/-! ## What a grid point writes back -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The body's stored value at row p of tile t is the result at batch row 1024·t + p. -/
theorem out_row (c : Dev nD) (t : Fin cfg0.N) (p : Fin 1024) :
    k0_pay1 (F := Ideal) (k0_pay2 (iblk m c 0 t)) (k0_pay3 (iblk m c 1 t) (iblk m c 5 t) (iblk m c 6 t) (iblk m c 7 t) (iblk m c 8 t) (iblk m c 9 t))
        (iblk m c 10 t) (iblk m c 11 t) (iblk m c 2 t) (iblk m c 4 t) (iblk m c 3 t) (iblk m c 12 t) (ix2 p (0 : Fin 1))
      = Grow m c (row t p) := by
  refine (Cert.KernelIdeal.Pay.pay_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) p).trans ?_
  unfold Grow
  rw [blk4 m c t, blk5 m c t, blk6 m c t, blk7 m c t, blk8 m c t, blk9 m c t, blk10 m c t, blk11 m c t, blk12 m c t, blk3 m c t p]
  simp only [blk0 m c t p, blk1 m c t p, blk2 m c t p]

/-- Point t writes back block t of the result array `G`. -/
theorem flushed13_eq (c : Dev nD) (t : Fin cfg0.N) :
    (dats m 0 c).flushed 13 t = ((cfg0.win 13).blk t).view.read (Elt Ideal) (G m c) := by
  show (cfg0.win 13).cut (grid0.coords t) ((dats m 0 c).after 13 t) = _
  rw [after13]
  unfold out13
  rw [View.canon_unit_zero hz2]
  simp only [View.ld_unit_zero (S := S1024x26x16) hz3, View.ld_unit_zero (S := S1024x429) hz2, View.ld_unit_zero (S := S1024x13) hz2,
    View.ld_unit_zero (S := S1024x1) hz2, View.ld_unit_zero (S := S13x1) hz2, View.ld_unit_zero (S := S429x400) hz2,
    View.ld_unit_zero (S := S400) hz1, View.ld_unit_zero (S := S400x400) hz2, View.ld_unit_zero (S := S400x1) hz2,
    View.ld_unit_zero (S := S1) hz1]
  obtain ⟨-, -, -, -, -, -, -, -, -, h0, h1⟩ := idx_tiled t
  -- name the stored value, so that only the window's cut and the block's reading are opened below
  generalize hP : k0_pay1 (F := Ideal) (k0_pay2 (iblk m c 0 t)) (k0_pay3 (iblk m c 1 t) (iblk m c 5 t) (iblk m c 6 t) (iblk m c 7 t) (iblk m c 8 t) (iblk m c 9 t))
        (iblk m c 10 t) (iblk m c 11 t) (iblk m c 2 t) (iblk m c 4 t) (iblk m c 3 t) (iblk m c 12 t) = P
  have key : ∀ p : Fin 1024, P (ix2 p (0 : Fin 1)) = Grow m c (row t p) := fun p => by rw [← hP]; exact out_row m c t p
  clear hP
  -- likewise name the result array while the block's reading is opened
  generalize hG : G m c = Garr
  funext j
  show P j = Garr (((cfg0.win 13).blk t).view.emb j)
  subst hG
  obtain ⟨p, q, rfl⟩ : ∃ (p : Fin 1024) (q : Fin 1), j = ix2 p q := ⟨j 0, j 1, eq_ix2 j⟩
  obtain rfl : q = 0 := Subsingleton.elim q 0
  rw [key p]
  show Grow m c (row t p) = Grow m c ⟨((((cfg0.win 13).blk t).view.emb (ix2 p (0 : Fin 1))) 0).val, _⟩
  refine congrArg (Grow m c) (Fin.ext ?_)
  show t.val * 1024 + p.val = win0_13.index t (0 : Fin 2) * 1024 + 1 * p.val
  omega

/-! ## The sixteen tiles cover the result -/

theorem mem_blk13 (t : Fin cfg0.N) (i : S16384x1.Idx) :
    i ∈ ((cfg0.win 13).blk t).view.set ↔ ∀ a : Fin 2, win0_13.index t a * S1024x1.size a ≤ (i a).val ∧ (i a).val < win0_13.index t a * S1024x1.size a + S1024x1.size a := by
  show i ∈ ((View.whole main_v44).slice (win0_13.rect t)).set ↔ _
  rw [View.set_slice_whole, Rect.mem_set_unit]
  exact Iff.rfl

/-- Batch row r lies in tile r / 1024. -/
theorem cover13 (i : S16384x1.Idx) : ∃ t : Fin cfg0.N, (cfg0.win 13).flush t = true ∧ i ∈ ((cfg0.win 13).blk t).view.set := by
  have hi0 : (i 0).val < 16384 := (i 0).isLt
  have hi1 : (i 1).val < 1 := (i 1).isLt
  have hN : (i 0).val / 1024 < cfg0.N := by rw [show cfg0.N = 16 from N_0]; omega
  obtain ⟨-, -, -, -, -, -, -, -, -, h0, h1⟩ := idx_tiled ⟨(i 0).val / 1024, hN⟩
  refine ⟨⟨(i 0).val / 1024, hN⟩, flush0_13 _, ?_⟩
  rw [mem_blk13]
  intro a
  match a with
  | ⟨0, _⟩ =>
    show win0_13.index ⟨(i 0).val / 1024, hN⟩ (0 : Fin 2) * 1024 ≤ (i 0).val ∧ (i 0).val < win0_13.index ⟨(i 0).val / 1024, hN⟩ (0 : Fin 2) * 1024 + 1024
    rw [h0]; show (i 0).val / 1024 * 1024 ≤ (i 0).val ∧ (i 0).val < (i 0).val / 1024 * 1024 + 1024; omega
  | ⟨1, _⟩ =>
    show win0_13.index ⟨(i 0).val / 1024, hN⟩ (1 : Fin 2) * 1 ≤ (i 1).val ∧ (i 1).val < win0_13.index ⟨(i 0).val / 1024, hN⟩ (1 : Fin 2) * 1 + 1
    omega

/-- The result array after the run. -/
theorem final13 (c : Dev nD) : (dats m 0 c).arrAt 13 cfg0.N = G m c :=
  (dats m 0 c).arrAt_eq_of_cover 13 (G m c) (fun t _ => flushed13_eq m c t) cover13

/-! ## The run, with the result named -/

theorem run_value : θ_run defs (onTc (τ := τ) (main (F := Ideal))) ⟨m, fun _ => 0, ρ⟩ (fun r => ∀ c : Dev nD,
      r.2.mem ((c.tc : Thread nD τ).loc main_v44) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 13).trans (final13 m c),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).1 12).trans (((dats m 0 c).arrAt_in 12 rfl _).trans ((A_eq m c 12).trans (V_main_arg5 m c))),
      ((h c).2 main_arg6 (Pipeline.mem_restRefs_of main_arg6 (by decide) (by decide))).trans (V_main_arg6 m c),
      ((h c).1 6).trans (((dats m 0 c).arrAt_in 6 rfl _).trans ((A_eq m c 6).trans (V_main_arg7 m c))),
      ((h c).2 main_arg8 (Pipeline.mem_restRefs_of main_arg8 (by decide) (by decide))).trans (V_main_arg8 m c),
      ((h c).1 8).trans (((dats m 0 c).arrAt_in 8 rfl _).trans ((A_eq m c 8).trans (V_main_arg9 m c))),
      ((h c).2 main_arg10 (Pipeline.mem_restRefs_of main_arg10 (by decide) (by decide))).trans (V_main_arg10 m c),
      ((h c).1 10).trans (((dats m 0 c).arrAt_in 10 rfl _).trans ((A_eq m c 10).trans (V_main_arg11 m c))),
      ((h c).2 main_arg12 (Pipeline.mem_restRefs_of main_arg12 (by decide) (by decide))).trans (V_main_arg12 m c)⟩)
    (run_main m ρ)

end Cert.KernelIdeal.Val

end
-- ==== Proof.FrameKernel.lean ====
/- (one hand pattern, in that script; the script writes the program's name in and repeats the per-window lines window by window)

  The frame of the program `Kernel`: it runs to the end, faults nowhere and leaves its thirteen argument arrays as they
  were.  @main is fifty-four host operations (the two embedding gathers with their index arithmetic, the row sum of the
  first-order embeddings, the reshape and concatenation that build the dense input, the format changes of the weights)
  followed by one pallas_call on a grid of sixteen batch tiles.  None of the host operations writes an argument array
  (each writes its own result buffer), so the region finds the arguments as launched.  Every input window's staging
  buffer holds its block of the array at every grid point — the four batch-tiled windows are fetched at every point, the
  nine whole-array windows once, their block index never moving.  The body loads all thirteen input blocks whole, and
  stores ONE value, whole, into the output window: the sigmoid of the logit, a pure function of the thirteen blocks.  So
  after the body at point t the output buffer holds that function of the point's input blocks, and nothing else changed.
-/
import proofs.«101644_j2156073583145_1_alg».proof.Proof.Gen.Kernel.Launch
import proofs.«101644_j2156073583145_1_alg».proof.Proof.Gen.Kernel.Skeleton
import proofs.«101644_j2156073583145_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents folded through the host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reference that is the result buffer of none of the fifty-four operations keeps its launch contents: each operation
    writes exactly its result buffer (the three-operand concatenate too), and distinct references are distinct buffers. -/
local macro "unwritten" : tactic => `(tactic| (
  refine StableHlo.after_of_forall_not_mem (b := Proc.devRef .tc _) _ _ (List.forall_iff_forall_mem.mp ?_)
  simp only [hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

theorem V_main_arg0 (c : Dev nD) : V m c main_arg0 = m ((c : Thread nD τ).loc main_arg0) := by unwritten
theorem V_main_arg1 (c : Dev nD) : V m c main_arg1 = m ((c : Thread nD τ).loc main_arg1) := by unwritten
theorem V_main_arg2 (c : Dev nD) : V m c main_arg2 = m ((c : Thread nD τ).loc main_arg2) := by unwritten
theorem V_main_arg3 (c : Dev nD) : V m c main_arg3 = m ((c : Thread nD τ).loc main_arg3) := by unwritten
theorem V_main_arg4 (c : Dev nD) : V m c main_arg4 = m ((c : Thread nD τ).loc main_arg4) := by unwritten
theorem V_main_arg5 (c : Dev nD) : V m c main_arg5 = m ((c : Thread nD τ).loc main_arg5) := by unwritten
theorem V_main_arg6 (c : Dev nD) : V m c main_arg6 = m ((c : Thread nD τ).loc main_arg6) := by unwritten
theorem V_main_arg7 (c : Dev nD) : V m c main_arg7 = m ((c : Thread nD τ).loc main_arg7) := by unwritten
theorem V_main_arg8 (c : Dev nD) : V m c main_arg8 = m ((c : Thread nD τ).loc main_arg8) := by unwritten
theorem V_main_arg9 (c : Dev nD) : V m c main_arg9 = m ((c : Thread nD τ).loc main_arg9) := by unwritten
theorem V_main_arg10 (c : Dev nD) : V m c main_arg10 = m ((c : Thread nD τ).loc main_arg10) := by unwritten
theorem V_main_arg11 (c : Dev nD) : V m c main_arg11 = m ((c : Thread nD τ).loc main_arg11) := by unwritten
theorem V_main_arg12 (c : Dev nD) : V m c main_arg12 = m ((c : Thread nD τ).loc main_arg12) := by unwritten

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether fetched there or not (unfetched,
    the block index has not moved), for any proof data whose arrays are the region-entry contents and whose body leaves
    the block in place. -/

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## From the pipeline's post to the frame claim's -/

/-- The argument arrays after the run: one that a window stages is an input array of the pipeline, which ends at its
    entry contents; one that no window stages is among the other unscoped buffers, which the region leaves alone; and the
    entry contents of either are the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).1 12).trans (((dats 0 c).arrAt_in 12 rfl _).trans ((hA c 12).trans (V_main_arg5 m c))),
      ((h c).2 main_arg6 (Pipeline.mem_restRefs_of main_arg6 (by decide) (by decide))).trans (V_main_arg6 m c),
      ((h c).1 6).trans (((dats 0 c).arrAt_in 6 rfl _).trans ((hA c 6).trans (V_main_arg7 m c))),
      ((h c).2 main_arg8 (Pipeline.mem_restRefs_of main_arg8 (by decide) (by decide))).trans (V_main_arg8 m c),
      ((h c).1 8).trans (((dats 0 c).arrAt_in 8 rfl _).trans ((hA c 8).trans (V_main_arg9 m c))),
      ((h c).2 main_arg10 (Pipeline.mem_restRefs_of main_arg10 (by decide) (by decide))).trans (V_main_arg10 m c),
      ((h c).1 10).trans (((dats 0 c).arrAt_in 10 rfl _).trans ((hA c 10).trans (V_main_arg11 m c))),
      ((h c).2 main_arg12 (Pipeline.mem_restRefs_of main_arg12 (by decide) (by decide))).trans (V_main_arg12 m c)⟩) h

/-! ## The body -/

abbrev r0 : Rect S1024x26x16 := Rect.unit (s := S1024x26x16) ![0, 0, 0] S1024x26x16.size inb_S1024x26x16_S1024x26x16_0_0_0
abbrev r1 : Rect S1024x429 := Rect.unit (s := S1024x429) ![0, 0] S1024x429.size inb_S1024x429_S1024x429_0_0
abbrev r2 : Rect S1024x13 := Rect.unit (s := S1024x13) ![0, 0] S1024x13.size inb_S1024x13_S1024x13_0_0
abbrev r3 : Rect S1024x1 := Rect.unit (s := S1024x1) ![0, 0] S1024x1.size inb_S1024x1_S1024x1_0_0
abbrev r4 : Rect S13x1 := Rect.unit (s := S13x1) ![0, 0] S13x1.size inb_S13x1_S13x1_0_0
abbrev r5 : Rect S429x400 := Rect.unit (s := S429x400) ![0, 0] S429x400.size inb_S429x400_S429x400_0_0
abbrev r6 : Rect S400 := Rect.unit (s := S400) ![0] S400.size inb_S400_S400_0
abbrev r7 : Rect S400x400 := Rect.unit (s := S400x400) ![0, 0] S400x400.size inb_S400x400_S400x400_0_0
abbrev r8 : Rect S400 := Rect.unit (s := S400) ![0] S400.size inb_S400_S400_0
abbrev r9 : Rect S400x400 := Rect.unit (s := S400x400) ![0, 0] S400x400.size inb_S400x400_S400x400_0_0
abbrev r10 : Rect S400 := Rect.unit (s := S400) ![0] S400.size inb_S400_S400_0
abbrev r11 : Rect S400x1 := Rect.unit (s := S400x1) ![0, 0] S400x1.size inb_S400x1_S400x1_0_0
abbrev r12 : Rect S1 := Rect.unit (s := S1) ![0] S1.size inb_S1_S1_0
abbrev r13 : Rect S1024x1 := Rect.unit (s := S1024x1) ![0, 0] S1024x1.size inb_S1024x1_S1024x1_0_0

/-- What the body leaves in the output window's buffer, from the thirteen input blocks: its one store, whole, of the
    sigmoid of the logit — the first-order term's block, plus the dense features' row products summed, plus half the
    sum over the embedding axis of (square of the field sum minus field sum of squares), plus the three-layer
    perceptron's output, plus the bias. -/
def out13 (x0 : Vec F S1024x26x16 .f32) (x1 : Vec F S1024x429 .bf16) (x2 : Vec F S1024x13 .f32) (x3 : Vec F S1024x1 .f32) (x4 : Vec F S13x1 .f32) (x5 : Vec F S429x400 .bf16) (x6 : Vec F S400 .f32) (x7 : Vec F S400x400 .bf16) (x8 : Vec F S400 .f32) (x9 : Vec F S400x400 .bf16) (x10 : Vec F S400 .f32) (x11 : Vec F S400x1 .bf16) (x12 : Vec F S1 .f32) : Vec F S1024x1 .f32 :=
  View.canon [⟨r13, k0_pay1 (k0_pay2 (View.ld x0 r0)) (k0_pay3 (View.ld x1 r1) (View.ld x5 r5) (View.ld x6 r6) (View.ld x7 r7) (View.ld x8 r8) (View.ld x9 r9)) (View.ld x10 r10) (View.ld x11 r11) (View.ld x2 r2) (View.ld x4 r4) (View.ld x3 r3) (View.ld x12 r12)⟩]

/-- The one store covers the buffer. -/
theorem cover13 (p0 : Vec F S1024x1 .f32) (y : S1024x1.Idx) :
    ∃ pc ∈ ([⟨r13, p0⟩] : List (View.Piece (Elt F) S1024x1 .f32)), y ∈ pc.1.set :=
  View.cover_of_tiled [⟨r13, p0⟩] S1024x1.size (by rfl) y

set_option maxHeartbeats 4000000 in
/-- The body on whole staging memrefs, the inputs' at contents `xW` and the output's at anything, runs to the
    continuation holding the inputs' as they were and the output's at `out13` of them. -/
theorem sound_kernel (c : Dev nD) (E : Set ℕ) (i : grid0.Coords) (arg1 : Memref sig .tc .vmem S1024x26x16 .f32) (harg1 : arg1.IsWhole) (arg2 : Memref sig .tc .vmem S1024x429 .bf16) (harg2 : arg2.IsWhole) (arg3 : Memref sig .tc .vmem S1024x13 .f32) (harg3 : arg3.IsWhole) (arg4 : Memref sig .tc .vmem S1024x1 .f32) (harg4 : arg4.IsWhole) (arg5 : Memref sig .tc .vmem S13x1 .f32) (harg5 : arg5.IsWhole) (arg6 : Memref sig .tc .vmem S429x400 .bf16) (harg6 : arg6.IsWhole) (arg7 : Memref sig .tc .vmem S400 .f32) (harg7 : arg7.IsWhole) (arg8 : Memref sig .tc .vmem S400x400 .bf16) (harg8 : arg8.IsWhole) (arg9 : Memref sig .tc .vmem S400 .f32) (harg9 : arg9.IsWhole) (arg10 : Memref sig .tc .vmem S400x400 .bf16) (harg10 : arg10.IsWhole) (arg11 : Memref sig .tc .vmem S400 .f32) (harg11 : arg11.IsWhole) (arg12 : Memref sig .tc .vmem S400x1 .bf16) (harg12 : arg12.IsWhole) (arg13 : Memref sig .tc .vmem S1 .f32) (harg13 : arg13.IsWhole) (arg14 : Memref sig .tc .vmem S1024x1 .f32) (harg14 : arg14.IsWhole)
    (x0 : Vec F S1024x26x16 .f32) (x1 : Vec F S1024x429 .bf16) (x2 : Vec F S1024x13 .f32) (x3 : Vec F S1024x1 .f32) (x4 : Vec F S13x1 .f32) (x5 : Vec F S429x400 .bf16) (x6 : Vec F S400 .f32) (x7 : Vec F S400x400 .bf16) (x8 : Vec F S400 .f32) (x9 : Vec F S400x400 .bf16) (x10 : Vec F S400 .f32) (x11 : Vec F S400x1 .bf16) (x12 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out13 x0 x1 x2 x3 x4 x5 x6 x7 x8 x9 x10 x11 x12)) -∗ K ⟨⟩))
      ⊢ wp frame (wpE (defs₀ (F := F)) Variants.none c none) E (cc0__dnn_fm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__dnn_fm_kernel_eq_skeleton]; unfold cc0__dnn_fm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  try dsimp only
  exact View.read_writes_eq_canon _ _ _ (cover13 _)

/-! ## The pipeline's proof data -/

/-- The arrays as the region finds them; after the body at point `t` each input's buffer at its block and the
    output's at `out13` of the input blocks; nothing of the kernel's own kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = out13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
/-- At any point the inputs' memrefs hold their blocks, so the body's triple applies; the invariant and the core's
    obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; afterwards every array of the pipeline holds what the proof data
    says (an input its entry contents, the output those overwritten by what the body left at each write-back) and every
    other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Hand

end
-- ==== Proof.RefRow.lean ====
/-
  The reference's result, read at one row of the batch: it is the row's result `Cert.Spec.rowOut` of that row of the
  first-order sum, of the dense features, of the gathered embeddings and of the concatenated dense input, and of the
  weights and biases.  The two gathers and the concatenation are left as the reference's own stages (never opened).
-/
import proofs.«101644_j2156073583145_1_alg».proof.Proof.Gen.ReferenceIdeal.Read
import proofs.«101644_j2156073583145_1_alg».proof.Proof.Spec
import Idealize.ShloMosaic.PureOps.Ideal.Laws
import Idealize.ShloMosaic.Lib.ValueIdx

noncomputable section

namespace Cert.ReferenceIdeal.RowRead

open Idealize.ShloMosaic Idealize.ShloMosaic.TcCoe Idealize.ShloMosaic.ValueIdx Idealize.SL.Sem
open Cert.ReferenceIdeal Cert.ReferenceIdeal.Gen Cert.ReferenceIdeal.Read

section Row

variable (x0 : (⟨S16384x26, .i32⟩ : BufTy).Contents (Elt Ideal)) (x1 : (⟨S16384x13, .f32⟩ : BufTy).Contents (Elt Ideal))
  (x2 : (⟨S26x100000x1, .f32⟩ : BufTy).Contents (Elt Ideal)) (x3 : (⟨S26x100000x16, .f32⟩ : BufTy).Contents (Elt Ideal))
  (x4 : (⟨S13x1, .f32⟩ : BufTy).Contents (Elt Ideal)) (x5 : (⟨S1, .f32⟩ : BufTy).Contents (Elt Ideal)) (x6 : (⟨S429x400, .f32⟩ : BufTy).Contents (Elt Ideal))
  (x7 : (⟨S400, .f32⟩ : BufTy).Contents (Elt Ideal)) (x8 : (⟨S400x400, .f32⟩ : BufTy).Contents (Elt Ideal)) (x9 : (⟨S400, .f32⟩ : BufTy).Contents (Elt Ideal))
  (x10 : (⟨S400x400, .f32⟩ : BufTy).Contents (Elt Ideal)) (x11 : (⟨S400, .f32⟩ : BufTy).Contents (Elt Ideal)) (x12 : (⟨S400x1, .f32⟩ : BufTy).Contents (Elt Ideal))
  (b : Fin 16384)

/-! ## Where each stage reads its operands, at the row `b`

  Every index function of a stage, applied at an index of the row, is again an index written by its coordinates. -/

/-- The dense features' product with their weights reads row `b` of the features at column `k` … -/
theorem lidx22 (k : Fin 13) : lidx_main_v22 (ix2 b (0 : Fin 1)) k = ix2 b k := by
  funext a; match a with | ⟨0, _⟩ => rfl | ⟨1, _⟩ => rfl
/-- … and the weight column at row `k`. -/
theorem ridx22 (k : Fin 13) : ridx_main_v22 (ix2 b (0 : Fin 1)) k = ix2 k (0 : Fin 1) := by
  funext a; match a with | ⟨0, _⟩ => rfl | ⟨1, _⟩ => rfl

/-- The sum over the embedding axis of a row reads the row at each embedding coordinate. -/
theorem idx44 (e : Fin 16) : idx_main_v44 (idx_main_v45 (ix2 b (0 : Fin 1))) e = ix2 b e := by
  funext a; match a with | ⟨0, _⟩ => rfl | ⟨1, _⟩ => rfl
/-- The sum over the fields, at row `b` and embedding coordinate `e`, reads field `f`'s vector at `e`. -/
theorem idx39 (e : Fin 16) (f : Fin 26) : idx_main_v39 (ix2 b e) f = ix3 b f e := by
  funext a; match a with | ⟨0, _⟩ => rfl | ⟨1, _⟩ => rfl | ⟨2, _⟩ => rfl
/-- The same for the sum of squares. -/
theorem idx42 (e : Fin 16) (f : Fin 26) : idx_main_v42 (ix2 b e) f = ix3 b f e := by
  funext a; match a with | ⟨0, _⟩ => rfl | ⟨1, _⟩ => rfl | ⟨2, _⟩ => rfl

/-- A layer's product at `(b, j)` reads row `b` of its input at `k` and the weight at `(k, j)`; its bias is read at `j`. -/
theorem lidx51 (j : Fin 400) (k : Fin 429) : lidx_main_v51 (ix2 b j) k = ix2 b k := by
  funext a; match a with | ⟨0, _⟩ => rfl | ⟨1, _⟩ => rfl
theorem ridx51 (j : Fin 400) (k : Fin 429) : ridx_main_v51 (ix2 b j) k = ix2 k j := by
  funext a; match a with | ⟨0, _⟩ => rfl | ⟨1, _⟩ => rfl
theorem idx53 (j : Fin 400) : idx_main_v52 (idx_main_v53 (ix2 b j)) = ix1 j := by
  funext a; match a with | ⟨0, _⟩ => rfl
theorem lidx56 (j : Fin 400) (k : Fin 400) : lidx_main_v56 (ix2 b j) k = ix2 b k := by
  funext a; match a with | ⟨0, _⟩ => rfl | ⟨1, _⟩ => rfl
theorem ridx56 (j : Fin 400) (k : Fin 400) : ridx_main_v56 (ix2 b j) k = ix2 k j := by
  funext a; match a with | ⟨0, _⟩ => rfl | ⟨1, _⟩ => rfl
theorem idx58 (j : Fin 400) : idx_main_v57 (idx_main_v58 (ix2 b j)) = ix1 j := by
  funext a; match a with | ⟨0, _⟩ => rfl
theorem lidx61 (j : Fin 400) (k : Fin 400) : lidx_main_v61 (ix2 b j) k = ix2 b k := by
  funext a; match a with | ⟨0, _⟩ => rfl | ⟨1, _⟩ => rfl
theorem ridx61 (j : Fin 400) (k : Fin 400) : ridx_main_v61 (ix2 b j) k = ix2 k j := by
  funext a; match a with | ⟨0, _⟩ => rfl | ⟨1, _⟩ => rfl
theorem idx63 (j : Fin 400) : idx_main_v62 (idx_main_v63 (ix2 b j)) = ix1 j := by
  funext a; match a with | ⟨0, _⟩ => rfl

/-- The last product reads row `b` of the third layer at `k` and the final weight column at row `k`. -/
theorem lidx66 (k : Fin 400) : lidx_main_v66 (ix2 b (0 : Fin 1)) k = ix2 b k := by
  funext a; match a with | ⟨0, _⟩ => rfl | ⟨1, _⟩ => rfl
theorem ridx66 (k : Fin 400) : ridx_main_v66 (ix2 b (0 : Fin 1)) k = ix2 k (0 : Fin 1) := by
  funext a; match a with | ⟨0, _⟩ => rfl | ⟨1, _⟩ => rfl
/-- The bias, broadcast twice, is read at its one index. -/
theorem idx69 : idx_main_v68 (idx_main_v69 (ix2 b (0 : Fin 1))) = ix1 (0 : Fin 1) := by
  funext a; match a with | ⟨0, _⟩ => rfl

/-! ## The stages' values at the row `b` -/

/-- The dense features times their weights. -/
theorem lin2_apply :
    val_main_v22 (F := Ideal) x1 x4 (ix2 b (0 : Fin 1)) = ∑ k : Fin 13, x1 (ix2 b k) * x4 (ix2 k (0 : Fin 1)) := by
  rw [val_main_v22_apply]
  refine Finset.sum_congr rfl fun k _ => ?_
  rw [lidx22, ridx22]

/-- The field sum of the embeddings at one embedding coordinate (the sum starts from the zero word). -/
theorem fieldSum_apply (e : Fin 16) :
    val_main_v39 (F := Ideal) x0 x3 (ix2 b e) = ∑ f : Fin 26, val_main_v38 (F := Ideal) x0 x3 (ix3 b f e) := by
  rw [val_main_v39_apply, val_main_cst_8_apply, Ideal.ofBits_def, Ideal.ofBits_zero_f32, zero_add]
  refine Finset.sum_congr rfl fun f _ => ?_
  rw [idx39]

/-- The field sum of the squared embeddings at one embedding coordinate. -/
theorem fieldSumSq_apply (e : Fin 16) :
    val_main_v42 (F := Ideal) x0 x3 (ix2 b e)
      = ∑ f : Fin 26, val_main_v38 (F := Ideal) x0 x3 (ix3 b f e) * val_main_v38 (F := Ideal) x0 x3 (ix3 b f e) := by
  rw [val_main_v42_apply, val_main_cst_9_apply, Ideal.ofBits_def, Ideal.ofBits_zero_f32, zero_add]
  refine Finset.sum_congr rfl fun f _ => ?_
  rw [idx42, val_main_v41_apply, Ideal.mulf_def]

/-- The second-order term: one half (the word, on the left) times the sum over the embedding axis of the square of the
    field sum minus the field sum of squares. -/
theorem cross_apply :
    val_main_v47 (F := Ideal) x0 x3 (ix2 b (0 : Fin 1))
      = Cert.Spec.cross (fun f e => val_main_v38 (F := Ideal) x0 x3 (ix3 b f e)) := by
  rw [val_main_v47_apply, val_main_v46_apply, val_main_cst_11_apply, val_main_v45_apply, val_main_v44_apply,
    val_main_cst_10_apply, Ideal.mulf_def, Ideal.ofBits_def, Ideal.ofBits_def, Ideal.ofBits_zero_f32, zero_add]
  unfold Cert.Spec.cross
  refine congrArg (Cert.Spec.half * ·) (Finset.sum_congr rfl fun e _ => ?_)
  rw [idx44, val_main_v43_apply, val_main_v40_apply, fieldSum_apply, fieldSumSq_apply, Ideal.subf_def, Ideal.mulf_def]

/-- A layer read at one output coordinate. -/
theorem dense_eq {K J : ℕ} (h : Fin K → EReal) (w : Fin K → Fin J → EReal) (c : Fin J → EReal) (j : Fin J) :
    Cert.Spec.dense h w c j = max ((∑ k : Fin K, h k * w k j) + c j) 0 := rfl

/-- The first layer of the perceptron. -/
theorem layer1_apply (j : Fin 400) :
    val_main_v55 (F := Ideal) x0 x1 x3 x6 x7 (ix2 b j)
      = Cert.Spec.dense (fun k => val_main_v50 (F := Ideal) x0 x1 x3 (ix2 b k)) (fun k j => x6 (ix2 k j)) (fun j => x7 (ix1 j)) j := by
  rw [val_main_v55_apply, val_main_v54_apply, val_main_v51_apply, val_main_v53_apply, val_main_v52_apply,
    val_main_call0_v0_apply, val_main_call0_cst_apply, idx53, Ideal.maximumf_def, Ideal.addf_def, Ideal.ofBits_def,
    Ideal.ofBits_zero_f32, dense_eq]
  refine congrArg (fun s => max (s + x7 (ix1 j)) 0) (Finset.sum_congr rfl fun k _ => ?_)
  rw [lidx51, ridx51]

/-- The second layer. -/
theorem layer2_apply (j : Fin 400) :
    val_main_v60 (F := Ideal) x0 x1 x3 x6 x7 x8 x9 (ix2 b j)
      = Cert.Spec.dense (Cert.Spec.dense (fun k => val_main_v50 (F := Ideal) x0 x1 x3 (ix2 b k)) (fun k j => x6 (ix2 k j)) (fun j => x7 (ix1 j)))
          (fun k j => x8 (ix2 k j)) (fun j => x9 (ix1 j)) j := by
  rw [val_main_v60_apply, val_main_v59_apply, val_main_v56_apply, val_main_v58_apply, val_main_v57_apply,
    val_main_call1_v0_apply, val_main_call1_cst_apply, idx58, Ideal.maximumf_def, Ideal.addf_def, Ideal.ofBits_def,
    Ideal.ofBits_zero_f32, dense_eq]
  refine congrArg (fun s => max (s + x9 (ix1 j)) 0) (Finset.sum_congr rfl fun k _ => ?_)
  rw [lidx56, ridx56, layer1_apply]

/-- The third layer. -/
theorem layer3_apply (j : Fin 400) :
    val_main_v65 (F := Ideal) x0 x1 x3 x6 x7 x8 x9 x10 x11 (ix2 b j)
      = Cert.Spec.dense (Cert.Spec.dense (Cert.Spec.dense (fun k => val_main_v50 (F := Ideal) x0 x1 x3 (ix2 b k)) (fun k j => x6 (ix2 k j)) (fun j => x7 (ix1 j)))
          (fun k j => x8 (ix2 k j)) (fun j => x9 (ix1 j))) (fun k j => x10 (ix2 k j)) (fun j => x11 (ix1 j)) j := by
  rw [val_main_v65_apply, val_main_v64_apply, val_main_v61_apply, val_main_v63_apply, val_main_v62_apply,
    val_main_call2_v0_apply, val_main_call2_cst_apply, idx63, Ideal.maximumf_def, Ideal.addf_def, Ideal.ofBits_def,
    Ideal.ofBits_zero_f32, dense_eq]
  refine congrArg (fun s => max (s + x11 (ix1 j)) 0) (Finset.sum_congr rfl fun k _ => ?_)
  rw [lidx61, ridx61, layer2_apply]

/-- The third layer against the final weight column. -/
theorem head_apply :
    val_main_v66 (F := Ideal) x0 x1 x3 x6 x7 x8 x9 x10 x11 x12 (ix2 b (0 : Fin 1))
      = ∑ j : Fin 400, Cert.Spec.dense (Cert.Spec.dense (Cert.Spec.dense (fun k => val_main_v50 (F := Ideal) x0 x1 x3 (ix2 b k)) (fun k j => x6 (ix2 k j)) (fun j => x7 (ix1 j)))
          (fun k j => x8 (ix2 k j)) (fun j => x9 (ix1 j))) (fun k j => x10 (ix2 k j)) (fun j => x11 (ix1 j)) j * x12 (ix2 j (0 : Fin 1)) := by
  rw [val_main_v66_apply]
  refine Finset.sum_congr rfl fun j _ => ?_
  rw [lidx66, ridx66, layer3_apply]

/-- The bias. -/
theorem bias_apply : val_main_v69 (F := Ideal) x5 (ix2 b (0 : Fin 1)) = x5 (ix1 (0 : Fin 1)) := by
  rw [val_main_v69_apply, val_main_v68_apply, idx69]

/-- The logit: the five terms, added left to right. -/
theorem logit_apply :
    val_main_v70 (F := Ideal) x0 x1 x2 x3 x4 x5 x6 x7 x8 x9 x10 x11 x12 (ix2 b (0 : Fin 1))
      = Cert.Spec.logit (val_main_v21 (F := Ideal) x0 x2 (ix2 b (0 : Fin 1))) (fun k => x1 (ix2 b k)) (fun k => x4 (ix2 k (0 : Fin 1)))
          (fun f e => val_main_v38 (F := Ideal) x0 x3 (ix3 b f e)) (fun k => val_main_v50 (F := Ideal) x0 x1 x3 (ix2 b k))
          (fun k j => x6 (ix2 k j)) (fun j => x7 (ix1 j)) (fun k j => x8 (ix2 k j)) (fun j => x9 (ix1 j)) (fun k j => x10 (ix2 k j)) (fun j => x11 (ix1 j))
          (fun j => x12 (ix2 j (0 : Fin 1))) (x5 (ix1 (0 : Fin 1))) := by
  rw [val_main_v70_apply, val_main_v67_apply, val_main_v48_apply, val_main_v23_apply, bias_apply, head_apply, cross_apply,
    lin2_apply]
  simp only [Ideal.addf_def]
  unfold Cert.Spec.logit
  rfl

end Row

theorem ref_apply (x0 : (⟨S16384x26, .i32⟩ : BufTy).Contents (Elt Ideal)) (x1 : (⟨S16384x13, .f32⟩ : BufTy).Contents (Elt Ideal))
    (x2 : (⟨S26x100000x1, .f32⟩ : BufTy).Contents (Elt Ideal)) (x3 : (⟨S26x100000x16, .f32⟩ : BufTy).Contents (Elt Ideal))
    (x4 : (⟨S13x1, .f32⟩ : BufTy).Contents (Elt Ideal)) (x5 : (⟨S1, .f32⟩ : BufTy).Contents (Elt Ideal)) (x6 : (⟨S429x400, .f32⟩ : BufTy).Contents (Elt Ideal))
    (x7 : (⟨S400, .f32⟩ : BufTy).Contents (Elt Ideal)) (x8 : (⟨S400x400, .f32⟩ : BufTy).Contents (Elt Ideal)) (x9 : (⟨S400, .f32⟩ : BufTy).Contents (Elt Ideal))
    (x10 : (⟨S400x400, .f32⟩ : BufTy).Contents (Elt Ideal)) (x11 : (⟨S400, .f32⟩ : BufTy).Contents (Elt Ideal)) (x12 : (⟨S400x1, .f32⟩ : BufTy).Contents (Elt Ideal))
    (b : Fin 16384) :
    val_main_v76 (F := Ideal) x0 x1 x2 x3 x4 x5 x6 x7 x8 x9 x10 x11 x12 (ix2 b (0 : Fin 1))
      = Cert.Spec.rowOut (val_main_v21 (F := Ideal) x0 x2 (ix2 b (0 : Fin 1))) (fun k => x1 (ix2 b k)) (fun k => x4 (ix2 k (0 : Fin 1)))
          (fun f e => val_main_v38 (F := Ideal) x0 x3 (ix3 b f e)) (fun k => val_main_v50 (F := Ideal) x0 x1 x3 (ix2 b k))
          (fun k j => x6 (ix2 k j)) (fun j => x7 (ix1 j)) (fun k j => x8 (ix2 k j)) (fun j => x9 (ix1 j)) (fun k j => x10 (ix2 k j)) (fun j => x11 (ix1 j))
          (fun j => x12 (ix2 j (0 : Fin 1))) (x5 (ix1 (0 : Fin 1))) := by
  rw [val_main_v76_apply, val_main_v75_apply, val_main_cst_13_apply, val_main_v74_apply, val_main_v73_apply,
    val_main_cst_12_apply, val_main_v72_apply, val_main_v71_apply, logit_apply, Ideal.hostDivf_def, Ideal.addf_def,
    Ideal.hostUnary_exp_def, Ideal.hostNegf_def, Ideal.negf_def, Ideal.ofBits_def, Cert.Spec.logistic_spelled]
  rfl

end Cert.ReferenceIdeal.RowRead

end
-- ==== Proof.Bridge.lean ====
/-
  The two idealized programs compute one function.

  Both programs begin with the same host arithmetic: the two embedding gathers (with the index arithmetic jax puts
  around them), the row sum of the first-order embeddings, and the reshape and concatenation that lay the gathered
  embeddings and the dense features out as the perceptron's input.  The kernel program then changes the format of that
  input and of the four weight matrices — the identity on the extended reals — and hands them to the pallas_call; so the
  arrays the region finds are the reference's own stages of the same arguments.  The kernel's result at batch row b is
  the row function of row b of those arrays (the kernel's value), and the reference's result at row b is the same row
  function of row b of its stages (the reference's reading); hence the two result arrays are equal, entry by entry.
-/
import proofs.«101644_j2156073583145_1_alg».proof.Proof.KernelValue
import proofs.«101644_j2156073583145_1_alg».proof.Proof.FrameKernel
import proofs.«101644_j2156073583145_1_alg».proof.Proof.Gen.Pre_finite_inputs
import proofs.«101644_j2156073583145_1_alg».proof.Proof.RefRow
import proofs.«101644_j2156073583145_1_alg».proof.Proof.Gen.ReferenceIdeal.Run
import proofs.«101644_j2156073583145_1_alg».proof.Proof.Gen.ReferenceIdeal.Read
import proofs.«101644_j2156073583145_1_alg».proof.Defs
import Idealize.ShloMosaic.Lib.StableHlo.Run

set_option maxRecDepth 16384

noncomputable section

namespace Cert.Bridge

open Idealize.ShloMosaic Idealize.ShloMosaic.TcCoe Idealize.ShloMosaic.ValueIdx Idealize.ShloMosaic.StableHlo
open Idealize.SL Idealize.SL.Sem
open Cert.KernelIdeal.Hand Cert.KernelIdeal.Val

variable (m : (ℓ : Loc Cert.KernelIdeal.nD Cert.KernelIdeal.τ Cert.KernelIdeal.sig) → Buf (Elt Ideal) ℓ)

/-! ## The arrays the region finds are the reference's stages of the arguments -/

set_option maxHeartbeats 4000000 in
/-- The gathered embeddings. -/
theorem V_fm (c : Dev Cert.KernelIdeal.nD) :
    V m c Cert.KernelIdeal.main_v36 = Cert.ReferenceIdeal.Read.val_main_v38 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) := by
  dsimp only [V, Cert.KernelIdeal.Gen.hostOps0]
  after_results_simp <;> rfl

set_option maxHeartbeats 4000000 in
/-- The perceptron's input: the reference's concatenation, its format changed (the identity here). -/
theorem V_h0 (c : Dev Cert.KernelIdeal.nD) :
    V m c Cert.KernelIdeal.main_v39 = Cert.ReferenceIdeal.Read.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) := by
  dsimp only [V, Cert.KernelIdeal.Gen.hostOps0]
  after_results_simp <;> rfl

set_option maxHeartbeats 4000000 in
/-- The first-order sum. -/
theorem V_lin (c : Dev Cert.KernelIdeal.nD) :
    V m c Cert.KernelIdeal.main_v21 = Cert.ReferenceIdeal.Read.val_main_v21 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) := by
  dsimp only [V, Cert.KernelIdeal.Gen.hostOps0]
  after_results_simp <;> rfl

set_option maxHeartbeats 4000000 in
/-- The four weight matrices, their format changed (the identity here). -/
theorem V_w0 (c : Dev Cert.KernelIdeal.nD) : V m c Cert.KernelIdeal.main_v40 = (m ((c.tc : Thread Cert.KernelIdeal.nD Cert.KernelIdeal.τ).loc Cert.KernelIdeal.main_arg6)) := by
  dsimp only [V, Cert.KernelIdeal.Gen.hostOps0]
  after_results_simp <;> rfl
set_option maxHeartbeats 4000000 in
theorem V_w1 (c : Dev Cert.KernelIdeal.nD) : V m c Cert.KernelIdeal.main_v41 = (m ((c.tc : Thread Cert.KernelIdeal.nD Cert.KernelIdeal.τ).loc Cert.KernelIdeal.main_arg8)) := by
  dsimp only [V, Cert.KernelIdeal.Gen.hostOps0]
  after_results_simp <;> rfl
set_option maxHeartbeats 4000000 in
theorem V_w2 (c : Dev Cert.KernelIdeal.nD) : V m c Cert.KernelIdeal.main_v42 = (m ((c.tc : Thread Cert.KernelIdeal.nD Cert.KernelIdeal.τ).loc Cert.KernelIdeal.main_arg10)) := by
  dsimp only [V, Cert.KernelIdeal.Gen.hostOps0]
  after_results_simp <;> rfl
set_option maxHeartbeats 4000000 in
theorem V_wf (c : Dev Cert.KernelIdeal.nD) : V m c Cert.KernelIdeal.main_v43 = (m ((c.tc : Thread Cert.KernelIdeal.nD Cert.KernelIdeal.τ).loc Cert.KernelIdeal.main_arg12)) := by
  dsimp only [V, Cert.KernelIdeal.Gen.hostOps0]
  after_results_simp <;> rfl

/-! ## One function -/

/-- The kernel's result array is the reference's last stage of the same arguments. -/
theorem G_eq (c : Dev Cert.KernelIdeal.nD) :
    G m c = Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  funext i
  obtain ⟨b, q, rfl⟩ : ∃ (b : Fin 16384) (q : Fin 1), i = ix2 b q := ⟨i 0, i 1, eq_ix2 i⟩
  obtain rfl : q = 0 := Subsingleton.elim q 0
  rw [Cert.ReferenceIdeal.RowRead.ref_apply]
  show Grow m c b = _
  unfold Grow
  simp only [A0, A1, A2, A3, A4, A5, A6, A7, A8, A9, A10, A11, A12, V_fm m c, V_h0 m c, V_lin m c, V_w0 m c, V_w1 m c, V_w2 m c, V_wf m c,
    V_main_arg1 m c, V_main_arg4 m c, V_main_arg5 m c, V_main_arg7 m c, V_main_arg9 m c, V_main_arg11 m c]

/-! ## The claims -/

theorem frame_k : Cert.frame_Kernel := fun m ρ _ => Cert.Kernel.Hand.frame m ρ

theorem frame_ki : Cert.frame_KernelIdeal := fun m ρ _ => Cert.KernelIdeal.Hand.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- From memories agreeing on the arguments both programs run; the kernel's result is `G` of its arguments, the
    reference's its last stage of its own, and the two are one function of equal arguments. -/
theorem algebraic : Cert.algebraic_KernelIdeal_ReferenceIdeal := by
  intro m ρ m' ρ' _ hagree
  refine ⟨fun c => G m c, run_value m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7, h8, h9, h10, h11, h12⟩ := hagree c
  rw [Cert.ReferenceIdeal.Read.val_main_v76_eq, h0, h1, h2, h3, h4, h5, h6, h7, h8, h9, h10, h11, h12]
  exact (G_eq m c).symm

end Cert.Bridge

end
-- ==== Proof.lean ====
/-
  The certificate of a factorization-machine-plus-perceptron click model: a Pallas kernel against its jnp reference.

  Both programs gather, for each of 16384 batch rows and 26 sparse fields, a first-order scalar and a 16-vector from
  embedding tables, and compute

      sigmoid( Σ_f e1 + x_dense · w_dense + ½ Σ_e ((Σ_f v_f)² − Σ_f v_f²) + MLP(concat(v, x_dense)) · w_final + bias ),

  the MLP three relu layers of width 400.  The reference does all of it with host operations.  The kernel program does
  the gathers, the first-order sum and the concatenation with the same host operations, changes the format of the
  perceptron's input and weights (the identity on the extended reals), and computes the rest in one pallas_call over
  sixteen tiles of 1024 rows, each row depending only on the same row of its inputs.

  · The two kernel frames (Proof/FrameKernel.lean, Proof/FrameKernelIdeal.lean): no host operation writes an argument,
    every input window holds its block at every point, the body's one store covers the output window.
  · The reference's frame is its run with the result dropped.
  · The ideal pass rewrote nothing, so the kernel's idealization is its own text.
  · The two idealized programs end with equal results (Proof/Bridge.lean): the kernel's result at row b is the row
    function `Cert.Spec.rowOut` of row b of the arrays its region finds (Proof/KernelPay.lean, Proof/KernelValue.lean),
    the reference's is the same function of row b of its own stages (Proof/RefRow.lean), and those arrays ARE those
    stages.  Every step reads an operation at an index; no distributive law is used, so finiteness is never needed.
-/
import proofs.«101644_j2156073583145_1_alg».proof.Defs
import proofs.«101644_j2156073583145_1_alg».proof.Proof.Gen.Kernel
import proofs.«101644_j2156073583145_1_alg».proof.Proof.Gen.Kernel.Skeleton
import proofs.«101644_j2156073583145_1_alg».proof.Proof.Gen.Kernel.Launch
import proofs.«101644_j2156073583145_1_alg».proof.Proof.Gen.Kernel.Points
import proofs.«101644_j2156073583145_1_alg».proof.Proof.Gen.KernelIdeal
import proofs.«101644_j2156073583145_1_alg».proof.Proof.Gen.KernelIdeal.Skeleton
import proofs.«101644_j2156073583145_1_alg».proof.Proof.Gen.KernelIdeal.Launch
import proofs.«101644_j2156073583145_1_alg».proof.Proof.Gen.KernelIdeal.Points
import proofs.«101644_j2156073583145_1_alg».proof.Proof.Gen.ReferenceIdeal
import proofs.«101644_j2156073583145_1_alg».proof.Proof.Gen.ReferenceIdeal.Run
import proofs.«101644_j2156073583145_1_alg».proof.Proof.Gen.ReferenceIdeal.Read
import proofs.«101644_j2156073583145_1_alg».proof.Proof.Gen.Pre_finite_inputs
import proofs.«101644_j2156073583145_1_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Bridge.frame_k, Cert.Bridge.frame_ki, Cert.Bridge.frame_ri, Cert.Bridge.preserves, Cert.Bridge.algebraic⟩

end Cert.Proof

end
